-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x4 : Shape := ⟨2, ![2097152, 4]⟩
abbrev S4x32 : Shape := ⟨2, ![4, 32]⟩
abbrev S1x32 : Shape := ⟨2, ![1, 32]⟩
abbrev S32x32 : Shape := ⟨2, ![32, 32]⟩
abbrev S32x2 : Shape := ⟨2, ![32, 2]⟩
abbrev S1x2 : Shape := ⟨2, ![1, 2]⟩
abbrev S_ : Shape := ⟨0, ![]⟩

class Facts : Prop where
  bcast_S_S2097152x4 : S_.BroadcastsInDim S2097152x4 (![] : Fin 0 → Fin S2097152x4.rank)
  reducesTo_S2097152x4_S_d0_1 : S2097152x4.ReducesTo [0, 1] S_
  h_S_ : 0 < S_.numel
  bcast_S_S4x32 : S_.BroadcastsInDim S4x32 (![] : Fin 0 → Fin S4x32.rank)
  reducesTo_S4x32_S_d0_1 : S4x32.ReducesTo [0, 1] S_
  bcast_S_S1x32 : S_.BroadcastsInDim S1x32 (![] : Fin 0 → Fin S1x32.rank)
  reducesTo_S1x32_S_d0_1 : S1x32.ReducesTo [0, 1] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S1x2 : S_.BroadcastsInDim S1x2 (![] : Fin 0 → Fin S1x2.rank)
  reducesTo_S1x2_S_d0_1 : S1x2.ReducesTo [0, 1] S_

variable [Facts]

def fn_part1 {F : FTy → Type} [FloatOps F] (main_arg4 : FVec F S1x32 .f32) (main_arg5 : FVec F S32x2 .f32) (main_arg6 : FVec F S1x2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S1x32 .f32 := Host.absf main_arg4
  let main_cst_6 : FVec F S_ .f32 := constant S_ .f32 0x7F800000#32
  let main_v20 : FVec F S1x32 .f32 := broadcastInDim S1x32 ![] bcast_S_S1x32 main_cst_6
  let main_v21 : IVec S1x32 1 := cmpf .olt main_v19 main_v20
  let main_c_7 : IVec S_ 1 := constantI S_ 1 1#1
  let main_v22 : IVec S_ 1 := (fun x v => Host.reduce IntOp.andi x v reducesTo_S1x32_S_d0_1 h_S_) main_v21 main_c_7
  let main_v23 : IVec S_ 1 := andi main_v18 main_v22
  let main_v24 : FVec F S32x2 .f32 := Host.absf main_arg5
  let main_cst_8 : FVec F S_ .f32 := constant S_ .f32 0x7F800000#32
  let main_v25 : FVec F S32x2 .f32 := broadcastInDim S32x2 ![] bcast_S_S32x2 main_cst_8
  let main_v26 : IVec S32x2 1 := cmpf .olt main_v24 main_v25
  let main_c_9 : IVec S_ 1 := constantI S_ 1 1#1
  let main_v27 : IVec S_ 1 := (fun x v => Host.reduce IntOp.andi x v reducesTo_S32x2_S_d0_1 h_S_) main_v26 main_c_9
  let main_v28 : IVec S_ 1 := andi main_v23 main_v27
  let main_v29 : FVec F S1x2 .f32 := Host.absf main_arg6
  let main_cst_10 : FVec F S_ .f32 := constant S_ .f32 0x7F800000#32
  let main_v30 : FVec F S1x2 .f32 := broadcastInDim S1x2 ![] bcast_S_S1x2 main_cst_10
  let main_v31 : IVec S1x2 1 := cmpf .olt main_v29 main_v30
  let main_c_11 : IVec S_ 1 := constantI S_ 1 1#1
  let main_v32 : IVec S_ 1 := (fun x v => Host.reduce IntOp.andi x v reducesTo_S1x2_S_d0_1 h_S_) main_v31 main_c_11
  let main_v33 : IVec S_ 1 := andi main_v28 main_v32
  main_v33

def fn {F : FTy → Type} [FloatOps F] (main_arg0 : FVec F S2097152x4 .f32) (main_arg1 : FVec F S4x32 .f32) (main_arg2 : FVec F S1x32 .f32) (main_arg3 : FVec F S32x32 .f32) (main_arg4 : FVec F S1x32 .f32) (main_arg5 : FVec F S32x2 .f32) (main_arg6 : FVec F S1x2 .f32) : IVec S_ 1 :=
  let main_v0 : FVec F S2097152x4 .f32 := Host.absf main_arg0
  let main_cst : FVec F S_ .f32 := constant S_ .f32 0x7F800000#32
  let main_v1 : FVec F S2097152x4 .f32 := broadcastInDim S2097152x4 ![] bcast_S_S2097152x4 main_cst
  let main_v2 : IVec S2097152x4 1 := cmpf .olt main_v0 main_v1
  let main_c : IVec S_ 1 := constantI S_ 1 1#1
  let main_v3 : IVec S_ 1 := (fun x v => Host.reduce IntOp.andi x v reducesTo_S2097152x4_S_d0_1 h_S_) main_v2 main_c
  let main_v4 : FVec F S4x32 .f32 := Host.absf main_arg1
  let main_cst_0 : FVec F S_ .f32 := constant S_ .f32 0x7F800000#32
  let main_v5 : FVec F S4x32 .f32 := broadcastInDim S4x32 ![] bcast_S_S4x32 main_cst_0
  let main_v6 : IVec S4x32 1 := cmpf .olt main_v4 main_v5
  let main_c_1 : IVec S_ 1 := constantI S_ 1 1#1
  let main_v7 : IVec S_ 1 := (fun x v => Host.reduce IntOp.andi x v reducesTo_S4x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_v13 main_v16
-- ==== Kernel.lean ====
abbrev S2097152x4 : Shape := ⟨2, ![2097152, 4]⟩
abbrev S4x32 : Shape := ⟨2, ![4, 32]⟩
abbrev S1x32 : Shape := ⟨2, ![1, 32]⟩
abbrev S32x32 : Shape := ⟨2, ![32, 32]⟩
abbrev S32x2 : Shape := ⟨2, ![32, 2]⟩
abbrev S1x2 : Shape := ⟨2, ![1, 2]⟩
abbrev S32x1 : Shape := ⟨2, ![32, 1]⟩
abbrev S32 : Shape := ⟨1, ![32]⟩
abbrev S1x1 : Shape := ⟨2, ![1, 1]⟩
abbrev S_ : Shape := ⟨0, ![]⟩
abbrev S1 : Shape := ⟨1, ![1]⟩
abbrev S2 : Shape := ⟨1, ![2]⟩
abbrev S2097152x2 : Shape := ⟨2, ![2097152, 2]⟩
abbrev S8192x4 : Shape := ⟨2, ![8192, 4]⟩
abbrev S8192x2 : Shape := ⟨2, ![8192, 2]⟩
abbrev S8192x32 : Shape := ⟨2, ![8192, 32]⟩

abbrev nBuf : Space → Nat
  | .hbm => 35
  | .vmem => 10
  | .smem => 0
  | _ => 0

abbrev bufTy : (tb : Table) → Fin (tcTables nBuf tb) → BufTy
  | .hbm, ⟨0, _⟩ => ⟨S2097152x4, .f32⟩
  | .hbm, ⟨1, _⟩ => ⟨S4x32, .f32⟩
  | .hbm, ⟨2, _⟩ => ⟨S1x32, .f32⟩
  | .hbm, ⟨3, _⟩ => ⟨S32x32, .f32⟩
  | .hbm, ⟨4, _⟩ => ⟨S1x32, .f32⟩
  | .hbm, ⟨5, _⟩ => ⟨S32x2, .f32⟩
  | .hbm, ⟨6, _⟩ => ⟨S1x2, .f32⟩
  | .hbm, ⟨7, _⟩ => ⟨S32x1, .f32⟩
  | .hbm, ⟨8, _⟩ => ⟨S32, .f32⟩
  | .hbm, ⟨9, _⟩ => ⟨S32x1, .f32⟩
  | .hbm, ⟨10, _⟩ => ⟨S32, .f32⟩
  | .hbm, ⟨11, _⟩ => ⟨S32, .f32⟩
  | .hbm, ⟨12, _⟩ => ⟨S32x1, .f32⟩
  | .hbm, ⟨13, _⟩ => ⟨S32, .f32⟩
  | .hbm, ⟨14, _⟩ => ⟨S32x1, .f32⟩
  | .hbm, ⟨15, _⟩ => ⟨S32, .f32⟩
  | .hbm, ⟨16, _⟩ => ⟨S32, .f32⟩
  | .hbm, ⟨17, _⟩ => ⟨S32x1, .f32⟩
  | .hbm, ⟨18, _⟩ => ⟨S32x1, .f32⟩
  | .hbm, ⟨19, _⟩ => ⟨S32x2, .f32⟩
  | .hbm, ⟨20, _⟩ => ⟨S1x1, .f32⟩
  | .hbm, ⟨21, _⟩ => ⟨S_, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S1x1, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S2, .f32⟩
  | .hbm, ⟨33, _⟩ => ⟨S1x2, .f32⟩
  | .hbm, ⟨34, _⟩ => ⟨S2097152x2, .f32⟩
  | .local _ .vmem, ⟨0, _⟩ => ⟨S8192x4, .f32⟩
  | .local _ .vmem, ⟨1, _⟩ => ⟨S8192x4, .f32⟩
  | .local _ .vmem, ⟨2, _⟩ => ⟨S4x32, .f32⟩
  | .local _ .vmem, ⟨3, _⟩ => ⟨S1x32, .f32⟩
  | .local _ .vmem, ⟨4, _⟩ => ⟨S32x32, .f32⟩
  | .local _ .vmem, ⟨5, _⟩ => ⟨S1x32, .f32⟩
  | .local _ .vmem, ⟨6, _⟩ => ⟨S32x2, .f32⟩
  | .local _ .vmem, ⟨7, _⟩ => ⟨S1x2, .f32⟩
  | .local _ .vmem, ⟨8, _⟩ => ⟨S8192x2, .f32⟩
  | .local _ .vmem, ⟨9, _⟩ => ⟨S8192x2, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S32x2_S32x1_0_0 : S32x2.Slices ![0, 0] S32x1
  shapeCasts_S32x1_S32 : S32x1.ShapeCasts S32
  slices_S32x2_S32x1_0_1 : S32x2.Slices ![0, 1] S32x1
  bcast_S32_S32x1_0 : S32.BroadcastsInDim S32x1 (![0] : Fin 1 → Fin S32x1.rank)
  concatenates_S32x1_S32x1_S32x2_d1 : Shape.Concatenates [S32x1, S32x1] S32x2 1
  slices_S1x2_S1x1_0_0 : S1x2.Slices ![0, 0] S1x1
  shapeCasts_S1x1_S_ : S1x1.ShapeCasts S_
  slices_S1x2_S1x1_0_1 : S1x2.Slices ![0, 1] S1x1
  bcast_S_S1 : S_.BroadcastsInDim S1 (![] : Fin 0 → Fin S1.rank)
  concatenates_S1_S1_S2_d0 : Shape.Concatenates [S1, S1] S2 0
  shapeCasts_S2_S1x2 : S2.ShapeCasts S1x2
  inb_S8192x4_S8192x4_0_0 : ∀ a, (![0, 0] : Fin 2 → Nat) a + S8192x4.size a ≤ S8192x4.size a
  h_S8192x4 : 0 < S8192x4.numel
  inb_S4x32_S4x32_0_0 : ∀ a, (![0, 0] : Fin 2 → Nat) a + S4x32.size a ≤ S4x32.size a
  h_S4x32 : 0 < S4x32.numel
  inb_S1x32_S1x32_0_0 : ∀ a, (![0, 0] : Fin 2 → Nat) a + S1x32.size a ≤ S1x32.size a
  h_S1x32 : 0 < S1x32.numel
  broadcasts_S1x32_S8192x32 : S1x32.Broadcasts S8192x32
  inb_S32x32_S32x32_0_0 : ∀ a, (![0, 0] : Fin 2 → Nat) a + S32x32.size a ≤ S32x32.size a
  h_S32x32 : 0 < S32x32.numel
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  inb_S8192x2_S8192x2_0_0 : ∀ a, (![0, 0] : Fin 2 → Nat) a + S8192x2.size a ≤ S8192x2.size a
  h_S8192x2 : 0 < S8192x2.numel
  dot_S8192x4_S4x32_S8192x32_1_0_0_1_n_n_wf : DotDims.WF S8192x4 S4x32 S8192x32 [1] [0] [0] [1] [] []
  dot_S8192x32_S32x32_S8192x32_1_0_0_1_n_n_wf : DotDims.WF S8192x32 S32x32 S8192x32 [1] [0] [0] [1] [] []
  dot_S8192x32_S32x2_S8192x2_1_0_0_1_n_n_wf : DotDims.WF S8192x32 S32x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S2097152x4.size a
  hwx0_0 : ∀ i : grid0.Coords, EltTy.bits .f32 = 32 ∨ (Rect.block (s := S2097152x4) S8192x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32.size a ≤ S4x32.size a
  hwx0_1 : ∀ i : grid0.Coords, EltTy.bits .f32 = 32 ∨ (Rect.block (s := S4x32) S4x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x2.size a ≤ S32x2.size a
  hwx0_5 : ∀ i : grid0.Coords, EltTy.bits .f32 = 32 ∨ (Rect.block (s := S32x2) S32x2.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192x2.size a ≤ S2097152x2.size a
  hwx0_7 : ∀ i : grid0.Coords, EltTy.bits .f32 = 32 ∨ (Rect.block (s := S2097152x2) S8192x2.size (cc0_transform_7 i) (hinb0_7 i)).WholeWords (EltTy.packing .f32)

variable [Facts₀]

def dot_S8192x4_S4x32_S8192x32_1_0_0_1_n_n : DotDims S8192x4 S4x32 S8192x32 where
  lhsContracting := [1]
  rhsContracting := [0]
  lhsNonContracting := [0]
  rhsNonContracting := [1]
  lhsBatch := []
  rhsBatch := []
  wf := dot_S8192x4_S4x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x2_S8192x2_1_0_0_1_n_n : DotDims S8192x32 S32x2 S8192x2 where
  lhsContracting := [1]
  rhsContracting := [0]
  lhsNonContracting := [0]
  rhsNonContracting := [1]
  lhsBatch := []
  rhsBatch := []
  wf := dot_S8192x32_S32x2_S8192x2_1_0_0_1_n_n_wf

abbrev win0_0 : Pipeline.Window sig grid0 :=
  Pipeline.Window.ofSpec (Memref.whole main_arg0) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S32x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S8192x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2097152x4 : Shape := ⟨2, ![2097152, 4]⟩
abbrev S4x32 : Shape := ⟨2, ![4, 32]⟩
abbrev S1x32 : Shape := ⟨2, ![1, 32]⟩
abbrev S32x32 : Shape := ⟨2, ![32, 32]⟩
abbrev S32x2 : Shape := ⟨2, ![32, 2]⟩
abbrev S1x2 : Shape := ⟨2, ![1, 2]⟩
abbrev S4x2097152 : Shape := ⟨2, ![4, 2097152]⟩
abbrev S32x4 : Shape := ⟨2, ![32, 4]⟩
abbrev S2x32 : Shape := ⟨2, ![2, 32]⟩
abbrev S32x1 : Shape := ⟨2, ![32, 1]⟩
abbrev S2x1 : Shape := ⟨2, ![2, 1]⟩
abbrev S2x2097152 : Shape := ⟨2, ![2, 2097152]⟩
abbrev S4x4096 : Shape := ⟨2, ![4, 4096]⟩
abbrev S2x4096 : Shape := ⟨2, ![2, 4096]⟩
abbrev S32x4096 : Shape := ⟨2, ![32, 4096]⟩
abbrev S1x4096 : Shape := ⟨2, ![1, 4096]⟩
abbrev S2097152x2 : Shape := ⟨2, ![2097152, 2]⟩

abbrev nBuf : Space → Nat
  | .hbm => 16
  | .vmem => 10
  | .smem => 0
  | _ => 0

abbrev bufTy : (tb : Table) → Fin (tcTables nBuf tb) → BufTy
  | .hbm, ⟨0, _⟩ => ⟨S2097152x4, .f32⟩
  | .hbm, ⟨1, _⟩ => ⟨S4x32, .f32⟩
  | .hbm, ⟨2, _⟩ => ⟨S1x32, .f32⟩
  | .hbm, ⟨3, _⟩ => ⟨S32x32, .f32⟩
  | .hbm, ⟨4, _⟩ => ⟨S1x32, .f32⟩
  | .hbm, ⟨5, _⟩ => ⟨S32x2, .f32⟩
  | .hbm, ⟨6, _⟩ => ⟨S1x2, .f32⟩
  | .hbm, ⟨7, _⟩ => ⟨S4x2097152, .f32⟩
  | .hbm, ⟨8, _⟩ => ⟨S32x4, .f32⟩
  | .hbm, ⟨9, _⟩ => ⟨S32x32, .f32⟩
  | .hbm, ⟨10, _⟩ => ⟨S2x32, .f32⟩
  | .hbm, ⟨11, _⟩ => ⟨S32x1, .f32⟩
  | .hbm, ⟨12, _⟩ => ⟨S32x1, .f32⟩
  | .hbm, ⟨13, _⟩ => ⟨S2x1, .f32⟩
  | .hbm, ⟨14, _⟩ => ⟨S2x2097152, .f32⟩
  | .hbm, ⟨15, _⟩ => ⟨S2097152x2, .f32⟩
  | .local _ .vmem, ⟨0, _⟩ => ⟨S4x4096, .f32⟩
  | .local _ .vmem, ⟨1, _⟩ => ⟨S4x4096, .f32⟩
  | .local _ .vmem, ⟨2, _⟩ => ⟨S32x4, .f32⟩
  | .local _ .vmem, ⟨3, _⟩ => ⟨S32x1, .f32⟩
  | .local _ .vmem, ⟨4, _⟩ => ⟨S32x32, .f32⟩
  | .local _ .vmem, ⟨5, _⟩ => ⟨S32x1, .f32⟩
  | .local _ .vmem, ⟨6, _⟩ => ⟨S2x32, .f32⟩
  | .local _ .vmem, ⟨7, _⟩ => ⟨S2x1, .f32⟩
  | .local _ .vmem, ⟨8, _⟩ => ⟨S2x4096, .f32⟩
  | .local _ .vmem, ⟨9, _⟩ => ⟨S2x4096, .f32⟩
  | _, _ => ⟨S2097152x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S2097152x4_S4x2097152_1_0 : S2097152x4.Transposes [1, 0] S4x2097152
  transposes_S4x32_S32x4_1_0 : S4x32.Transposes [1, 0] S32x4
  transposes_S32x32_S32x32_1_0 : S32x32.Transposes [1, 0] S32x32
  transposes_S32x2_S2x32_1_0 : S32x2.Transposes [1, 0] S2x32
  shapeCasts_S1x32_S32x1 : S1x32.ShapeCasts S32x1
  shapeCasts_S1x2_S2x1 : S1x2.ShapeCasts S2x1
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x4096 : S2x1.Broadcasts S2x4096
  slices_S2x4096_o0_0_S1x4096 : S2x4096.Slices ![0, 0] S1x4096
  slices_S2x4096_o1_0_S1x4096 : S2x4096.Slices ![1, 0] S1x4096
  concatenates_S1x4096_S1x4096_S2x4096_d0 : Shape.Concatenates [S1x4096, S1x4096] S2x4096 0
  inb_S2x4096_S2x4096_0_0 : ∀ a, (![0, 0] : Fin 2 → Nat) a + S2x4096.size a ≤ S2x4096.size a
  h_S2x4096 : 0 < S2x4096.numel
  transposes_S2x2097152_S2097152x2_1_0 : S2x2097152.Transposes [1, 0] S2097152x2
  dot_S32x4_S4x4096_S32x4096_1_0_0_1_n_n_wf : DotDims.WF S32x4 S4x4096 S32x4096 [1] [0] [0] [1] [] []
  dot_S32x32_S32x4096_S32x4096_1_0_0_1_n_n_wf : DotDims.WF S32x32 S32x4096 S32x4096 [1] [0] [0] [1] [] []
  dot_S2x32_S32x4096_S2x4096_1_0_0_1_n_n_wf : DotDims.WF S2x32 S32x4096 S2x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096.size a ≤ S4x2097152.size a
  hwx0_0 : ∀ i : grid0.Coords, EltTy.bits .f32 = 32 ∨ (Rect.block (s := S4x2097152) S4x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x4.size a ≤ S32x4.size a
  hwx0_1 : ∀ i : grid0.Coords, EltTy.bits .f32 = 32 ∨ (Rect.block (s := S32x4) S32x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x32.size a ≤ S2x32.size a
  hwx0_5 : ∀ i : grid0.Coords, EltTy.bits .f32 = 32 ∨ (Rect.block (s := S2x32) S2x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x1.size a ≤ S2x1.size a
  hwx0_6 : ∀ i : grid0.Coords, EltTy.bits .f32 = 32 ∨ (Rect.block (s := S2x1) S2x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x4096.size a ≤ S2x2097152.size a
  hwx0_7 : ∀ i : grid0.Coords, EltTy.bits .f32 = 32 ∨ (Rect.block (s := S2x2097152) S2x4096.size (cc0_transform_7 i) (hinb0_7 i)).WholeWords (EltTy.packing .f32)

variable [Facts₀]

def dot_S32x4_S4x4096_S32x4096_1_0_0_1_n_n : DotDims S32x4 S4x4096 S32x4096 where
  lhsContracting := [1]
  rhsContracting := [0]
  lhsNonContracting := [0]
  rhsNonContracting := [1]
  lhsBatch := []
  rhsBatch := []
  wf := dot_S32x4_S4x4096_S32x4096_1_0_0_1_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf
def dot_S2x32_S32x4096_S2x4096_1_0_0_1_n_n : DotDims S2x32 S32x4096 S2x4096 where
  lhsContracting := [1]
  rhsContracting := [0]
  lhsNonContracting := [0]
  rhsNonContracting := [1]
  lhsBatch := []
  rhsBatch := []
  wf := dot_S2x32_S32x4096_S2x4096_1_0_0_1_n_n_wf

abbrev win0_0 : Pipeline.Window sig grid0 :=
  Pipeline.Window.ofSpec (Memref.whole main_v0) S4x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S2x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.Spec.lean ====
import Idealize.ShloMosaic.PureOps.Ideal
import Idealize.ShloMosaic.Lib.ValueIdx
import proofs.«120801_g2000006315813370_pallasbulk_300_5_alg».proof.Proof.LibRealSums

/-! # The policy network as a function of its arrays, and why its two spellings agree

Both programs compute, for every batch row `r`, two hidden layers `a = relu (x · w1 + b1)`, `h = relu (a · w2 + b2)` and then the
two-class softmax of the logits `l c = h · w3[:, c] + b3[c]`.

* One program applies the logistic function to the DIFFERENCE logits: it contracts `h` with the difference weights
  `w3[:, c] - w3[:, 1 - c]` and adds the difference bias, so column `c` is `σ (l c - l (1 - c))` with
  `σ z = 1 / (1 + exp (0 - z))`.
* The other forms `d = l 0 - l 1` from the two logits and answers `σ d` in column 0 and `1 - σ d` in column 1.

On real numbers a contraction distributes over the difference of the weights, so the first program's column 0 is `σ d` and
its column 1 is `σ (-d) = 1 / (1 + exp d) = 1 - 1 / (1 + exp (-d))`. On the extended reals neither step survives an infinite
entry, which is why the statement asks every input to be a real number. -/

open scoped BigOperators

noncomputable section

namespace Cert.Mlp

open Idealize.ShloMosaic Idealize.ShloMosaic.ValueIdx Idealize.ShloMosaic.RealSums

/-- A row `x` through an affine map: `∑ i, x i * w i j + b j`. -/
def affine {n k : ℕ} (x : Fin n → EReal) (w : Fin n → Fin k → EReal) (b : Fin k → EReal) (j : Fin k) : EReal :=
  ∑ i : Fin n, x i * w i j + b j

/-- The two hidden layers of one row: `relu (relu (x · w1 + b1) · w2 + b2)`. -/
def hidden (x : Fin 4 → EReal) (w1 : Fin 4 → Fin 32 → EReal) (b1 : Fin 32 → EReal) (w2 : Fin 32 → Fin 32 → EReal)
    (b2 : Fin 32 → EReal) : Fin 32 → EReal :=
  fun j => max (affine (fun k => max (affine x w1 b1 k) 0) w2 b2 j) 0

/-- The logistic function as both programs spell it: `1 / (1 + exp (0 - z))`. -/
def sigm (z : EReal) : EReal := Ideal.div 1 (1 + Ideal.exp (0 - z))

/-- The logistic of the last affine layer: what the program with difference weights stores. -/
def sigOut (h : Fin 32 → EReal) (w : Fin 32 → Fin 2 → EReal) (b : Fin 2 → EReal) (c : Fin 2) : EReal := sigm (affine h w b c)

/-- The difference weights: column `c` minus the other column. -/
def diffW (w3 : Fin 32 → Fin 2 → EReal) : Fin 32 → Fin 2 → EReal := fun k c =>
  match c with
  | ⟨0, _⟩ => w3 k 0 - w3 k 1
  | ⟨1, _⟩ => w3 k 1 - w3 k 0

/-- The difference bias. -/
def diffB (b3 : Fin 2 → EReal) : Fin 2 → EReal := fun c =>
  match c with
  | ⟨0, _⟩ => b3 0 - b3 1
  | ⟨1, _⟩ => b3 1 - b3 0

/-- The closed-form two-class softmax: `σ (l 0 - l 1)` and its complement. -/
def softOut (h : Fin 32 → EReal) (w3 : Fin 32 → Fin 2 → EReal) (b3 : Fin 2 → EReal) (c : Fin 2) : EReal :=
  match c with
  | ⟨0, _⟩ => sigm (affine h w3 b3 0 - affine h w3 b3 1)
  | ⟨1, _⟩ => 1 - sigm (affine h w3 b3 0 - affine h w3 b3 1)

/-! ## Real entries stay real -/

theorem affine_isReal {n k : ℕ} {x : Fin n → EReal} {w : Fin n → Fin k → EReal} {b : Fin k → EReal}
    (hx : ∀ i, IsReal (x i)) (hw : ∀ i j, IsReal (w i j)) (hb : ∀ j, IsReal (b j)) (j : Fin k) : IsReal (affine x w b j) :=
  (IsReal.sum _ _ fun i _ => (hx i).mul (hw i j)).add (hb j)

theorem hidden_isReal {x : Fin 4 → EReal} {w1 : Fin 4 → Fin 32 → EReal} {b1 : Fin 32 → EReal} {w2 : Fin 32 → Fin 32 → EReal}
    {b2 : Fin 32 → EReal} (hx : ∀ i, IsReal (x i)) (hw1 : ∀ i j, IsReal (w1 i j)) (hb1 : ∀ j, IsReal (b1 j))
    (hw2 : ∀ i j, IsReal (w2 i j)) (hb2 : ∀ j, IsReal (b2 j)) (j : Fin 32) : IsReal (hidden x w1 b1 w2 b2 j) :=
  (affine_isReal (fun k => (affine_isReal hx hw1 hb1 k).max IsReal.zero) hw2 hb2 j).max IsReal.zero

/-! ## The two spellings of the last layer agree on real numbers -/

/-- The affine map of real data is the coercion of the real affine map. -/
theorem affine_coe {n k : ℕ} (x : Fin n → ℝ) (w : Fin n → Fin k → ℝ) (b : Fin k → ℝ) (j : Fin k) :
    affine (fun i => (x i : EReal)) (fun i j => (w i j : EReal)) (fun j => (b j : EReal)) j
      = ((∑ i : Fin n, x i * w i j + b j : ℝ) : EReal) := by
  simp only [affine, ← EReal.coe_mul, ← coe_sum, ← EReal.coe_add]

/-- The logistic function at a real number. -/
theorem sigm_coe (z : ℝ) : sigm (z : EReal) = ((1 / (1 + Real.exp (-z)) : ℝ) : EReal) := by
  have hne : (1 + Real.exp (-z) : ℝ) ≠ 0 := (add_pos one_pos (Real.exp_pos _)).ne'
  rw [sigm, zero_sub, ← EReal.coe_neg, Ideal.exp_coe, ← EReal.coe_one, ← EReal.coe_add, Ideal.div_coe hne, ← EReal.coe_mul,
    one_mul]

/-- `σ (-d) = 1 - σ d` on the reals. -/
theorem logistic_neg (d : ℝ) : 1 / (1 + Real.exp (- -d)) = 1 - 1 / (1 + Real.exp (-d)) := by
  have hpos := Real.exp_pos d
  rw [neg_neg, Real.exp_neg]
  field_simp
  ring

/-- THE BRIDGE: on real data the logistic of the difference layer is the closed-form softmax. -/
theorem sigOut_diff_eq_softOut {h : Fin 32 → EReal} {w3 : Fin 32 → Fin 2 → EReal} {b3 : Fin 2 → EReal}
    (hh : ∀ k, IsReal (h k)) (hw : ∀ k c, IsReal (w3 k c)) (hb : ∀ c, IsReal (b3 c)) (c : Fin 2) :
    sigOut h (diffW w3) (diffB b3) c = softOut h w3 b3 c := by
  choose h' hh' using hh
  choose w' hw' using hw
  choose b' hb' using hb
  obtain rfl : h = fun k => (h' k : EReal) := funext hh'
  obtain rfl : w3 = fun k c => (w' k c : EReal) := funext fun k => funext fun c => hw' k c
  obtain rfl : b3 = fun c => (b' c : EReal) := funext hb'
  have hdW : diffW (fun k c => (w' k c : EReal))
      = fun k c => (((fun k (c : Fin 2) => match c with | ⟨0, _⟩ => w' k 0 - w' k 1 | ⟨1, _⟩ => w' k 1 - w' k 0) k c : ℝ) : EReal) := by
    funext k c
    match c with
    | ⟨0, _⟩ => exact (EReal.coe_sub _ _).symm
    | ⟨1, _⟩ => exact (EReal.coe_sub _ _).symm
  have hdB : diffB (fun c => (b' c : EReal))
      = fun c => (((fun (c : Fin 2) => match c with | ⟨0, _⟩ => b' 0 - b' 1 | ⟨1, _⟩ => b' 1 - b' 0) c : ℝ) : EReal) := by
    funext c
    match c with
    | ⟨0, _⟩ => exact (EReal.coe_sub _ _).symm
    | ⟨1, _⟩ => exact (EReal.coe_sub _ _).symm
  rw [sigOut, hdW, hdB, affine_coe, sigm_coe]
  match c with
  | ⟨0, _⟩ =>
    show _ = sigm (affine _ _ _ 0 - affine _ _ _ 1)
    rw [affine_coe, affine_coe, ← EReal.coe_sub, sigm_coe]
    refine congrArg (fun z : ℝ => ((1 / (1 + Real.exp (-z)) : ℝ) : EReal)) ?_
    show ∑ i, h' i * (w' i 0 - w' i 1) + (b' 0 - b' 1) = _
    simp only [mul_sub, Finset.sum_sub_distrib]
    ring
  | ⟨1, _⟩ =>
    show _ = 1 - sigm (affine _ _ _ 0 - affine _ _ _ 1)
    rw [affine_coe, affine_coe, ← EReal.coe_sub, sigm_coe, ← EReal.coe_one, ← EReal.coe_sub, ← logistic_neg]
    refine congrArg (fun z : ℝ => ((1 / (1 + Real.exp (-z)) : ℝ) : EReal)) ?_
    show ∑ i, h' i * (w' i 1 - w' i 0) + (b' 1 - b' 0) = _
    simp only [mul_sub, Finset.sum_sub_distrib]
    ring

/-! ## The whole arrays -/

/-- A rank-2 array of extended reals. -/
abbrev Arr (a b : ℕ) : Type := (⟨2, ![a, b]⟩ : Shape).Idx → EReal

/-- Row `r` of the hidden activations, from the arrays in their batch-major layout. -/
def hiddenRow (X : Arr 2097152 4) (W1 : Arr 4 32) (B1 : Arr 1 32) (W2 : Arr 32 32) (B2 : Arr 1 32) (r : Fin 2097152) : Fin 32 → EReal :=
  hidden (fun k => X (ix2 r k)) (fun k j => W1 (ix2 k j)) (fun j => B1 (ix2 0 j)) (fun k j => W2 (ix2 k j)) (fun j => B2 (ix2 0 j))

/-- What the region with the logistic body leaves, from the arrays it is launched on (`W3k`, `B3k`: whatever weights and
    bias its last layer is given). -/
def sigRegion (X : Arr 2097152 4) (W1 : Arr 4 32) (B1 : Arr 1 32) (W2 : Arr 32 32) (B2 : Arr 1 32) (W3k : Arr 32 2) (B3k : Arr 1 2) :
    Arr 2097152 2 :=
  fun i => sigOut (hiddenRow X W1 B1 W2 B2 (i 0)) (fun k c => W3k (ix2 k c)) (fun c => B3k (ix2 0 c)) (i 1)

/-- The result both programs are to compute: the closed-form two-class softmax of the network, row by row. -/
def policy (X : Arr 2097152 4) (W1 : Arr 4 32) (B1 : Arr 1 32) (W2 : Arr 32 32) (B2 : Arr 1 32) (W3 : Arr 32 2) (B3 : Arr 1 2) :
    Arr 2097152 2 :=
  fun i => softOut (hiddenRow X W1 B1 W2 B2 (i 0)) (fun k c => W3 (ix2 k c)) (fun c => B3 (ix2 0 c)) (i 1)

/-- What the region with the feature-major body leaves, from the TRANSPOSED arrays it is launched on: entry `(c, r)` is
    class `c` of batch row `r`. -/
def softRegionT (XT : Arr 4 2097152) (W1T : Arr 32 4) (B1T : Arr 32 1) (W2T : Arr 32 32) (B2T : Arr 32 1) (W3T : Arr 2 32)
    (B3T : Arr 2 1) : Arr 2 2097152 :=
  fun i => softOut (hidden (fun k => XT (ix2 k (i 1))) (fun k j => W1T (ix2 j k)) (fun j => B1T (ix2 j 0)) (fun k j => W2T (ix2 j k))
    (fun j => B2T (ix2 j 0))) (fun k c => W3T (ix2 c k)) (fun c => B3T (ix2 c 0)) (i 0)

/-- The logistic region launched on the difference weights and bias computes the policy, when every input is real. -/
theorem sigRegion_diff_eq_policy (X : Arr 2097152 4) (W1 : Arr 4 32) (B1 : Arr 1 32) (W2 : Arr 32 32) (B2 : Arr 1 32) (W3 : Arr 32 2)
    (B3 : Arr 1 2) (W3k : Arr 32 2) (B3k : Arr 1 2)
    (hW : (fun k c => W3k (ix2 k c)) = diffW fun k c => W3 (ix2 k c)) (hB : (fun c => B3k (ix2 0 c)) = diffB fun c => B3 (ix2 0 c))
    (hX : ∀ i, IsReal (X i)) (hW1 : ∀ i, IsReal (W1 i)) (hB1 : ∀ i, IsReal (B1 i)) (hW2 : ∀ i, IsReal (W2 i))
    (hB2 : ∀ i, IsReal (B2 i)) (hW3 : ∀ i, IsReal (W3 i)) (hB3 : ∀ i, IsReal (B3 i)) :
    sigRegion X W1 B1 W2 B2 W3k B3k = policy X W1 B1 W2 B2 W3 B3 := by
  funext i
  unfold sigRegion policy
  rw [hW, hB]
  exact sigOut_diff_eq_softOut
    (hidden_isReal (fun _ => hX _) (fun _ _ => hW1 _) (fun _ => hB1 _) (fun _ _ => hW2 _) (fun _ => hB2 _))
    (fun _ _ => hW3 _) (fun _ => hB3 _) (i 1)

/-- The feature-major region launched on the transposed arrays computes the transposed policy. -/
theorem softRegionT_eq_policy (X : Arr 2097152 4) (W1 : Arr 4 32) (B1 : Arr 1 32) (W2 : Arr 32 32) (B2 : Arr 1 32) (W3 : Arr 32 2)
    (B3 : Arr 1 2) (XT : Arr 4 2097152) (W1T : Arr 32 4) (B1T : Arr 32 1) (W2T : Arr 32 32) (B2T : Arr 32 1) (W3T : Arr 2 32)
    (B3T : Arr 2 1)
    (hX : ∀ (k : Fin 4) (r : Fin 2097152), XT (ix2 k r) = X (ix2 r k)) (hW1 : ∀ (j : Fin 32) (k : Fin 4), W1T (ix2 j k) = W1 (ix2 k j))
    (hB1 : ∀ j : Fin 32, B1T (ix2 j 0) = B1 (ix2 0 j)) (hW2 : ∀ j k : Fin 32, W2T (ix2 j k) = W2 (ix2 k j))
    (hB2 : ∀ j : Fin 32, B2T (ix2 j 0) = B2 (ix2 0 j)) (hW3 : ∀ (c : Fin 2) (k : Fin 32), W3T (ix2 c k) = W3 (ix2 k c))
    (hB3 : ∀ c : Fin 2, B3T (ix2 c 0) = B3 (ix2 0 c)) (r : Fin 2097152) (c : Fin 2) :
    softRegionT XT W1T B1T W2T B2T W3T B3T (ix2 c r) = policy X W1 B1 W2 B2 W3 B3 (ix2 r c) := by
  unfold softRegionT policy hiddenRow
  simp only [hX, hW1, hB1, hW2, hB2, hW3, hB3]

end Cert.Mlp

end
-- ==== Proof.Finite.lean ====
import proofs.«120801_g2000006315813370_pallasbulk_300_5_alg».proof.Pre_finite_inputs
import Idealize.ShloMosaic.Lib.ReduceAll
import Idealize.ShloMosaic.Lib.ValueIdx
import proofs.«120801_g2000006315813370_pallasbulk_300_5_alg».proof.Proof.LibRealSums

/-! # From the finiteness precondition to real entries

The precondition is the conjunction, over the seven inputs, of "every entry `x` satisfies `|x| < +∞`". Among the
extended reals `|x| = max x (-x)`, and `max x (-x) < ⊤` fails at both infinities (`max ⊥ ⊤ = ⊤ = max ⊤ ⊥`), so it holds
exactly at the real numbers. A conjunction over all entries that came out true was true at every entry; hence every entry
of every input is a real number. -/

namespace Cert.Mlp.Finite

open Idealize.ShloMosaic Idealize.ShloMosaic.RealSums Cert.Pre_finite_inputs

/-- The pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max x (-x)` lies strictly below `+∞` is a real number: at `⊥` and at `⊤`
    the absolute value is `⊤`, which is not below itself. -/
theorem isReal_of_abs_lt (x : EReal) (h : Ideal.cmp .olt (max x (-x)) ⊤ = 1#1) : IsReal x := by
  induction x using EReal.rec with
  | bot => simp [Ideal.cmp] at h
  | top => simp [Ideal.cmp] at h
  | coe r => exact ⟨r, rfl⟩

/-- The result of a reduction over all axes has a single index. -/
instance : Subsingleton S_.Idx := ⟨fun _ _ => funext fun d => d.elim0⟩

/-- One input: if the conjunction over all entries of `|a i| < c i`, with `c` constantly `+∞`, is true, every entry of
    `a` is a real number. -/
theorem all_real {s : Shape} {axes : List (Fin s.rank)} (rt : s.ReducesTo axes S_) (hS : 0 < S_.numel)
    (a c : FVec Ideal s .f32) (hc : ∀ i, c i = (⊤ : EReal)) (init : IVec S_ 1)
    (e : Host.reduce IntOp.andi (cmpf .olt (Host.absf a) c) init rt hS ValueIdx.ix0 = 1#1) (i : s.Idx) :
    IsReal (a i) := by
  have hi : cmpf .olt (Host.absf a) c i = 1#1 := Host.reduce_andi_all _ init rt hS ValueIdx.ix0 e i
  refine isReal_of_abs_lt (a i) ?_
  rw [← hc i]
  exact hi

theorem entries_real [Cert.Pre_finite_inputs.Facts]
    (a0 : FVec Ideal S2097152x4 .f32) (a1 : FVec Ideal S4x32 .f32) (a2 : FVec Ideal S1x32 .f32) (a3 : FVec Ideal S32x32 .f32)
    (a4 : FVec Ideal S1x32 .f32) (a5 : FVec Ideal S32x2 .f32) (a6 : FVec Ideal S1x2 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i)) ∧ (∀ i, IsReal (a5 i)) ∧ (∀ i, IsReal (a6 i)) := by
  have h0 := congrFun h ValueIdx.ix0
  dsimp only [Cert.Pre_finite_inputs.fn, Cert.Pre_finite_inputs.fn_part1] at h0
  -- the result is the six-fold conjunction `(((((p0 ∧ p1) ∧ p2) ∧ p3) ∧ p4) ∧ p5) ∧ p6` of the seven per-input tests
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  have top : ∀ {s : Shape} {dims : Fin S_.rank → Fin s.rank} (bc : S_.BroadcastsInDim s dims) (i : s.Idx),
      broadcastInDim s dims bc (constant (F := Ideal) S_ .f32 0x7F800000#32) i = (⊤ : EReal) := fun _ _ => ofBits_inf
  exact ⟨all_real _ _ a0 _ (top _) _ e0, all_real _ _ a1 _ (top _) _ e1, all_real _ _ a2 _ (top _) _ e2,
    all_real _ _ a3 _ (top _) _ e3, all_real _ _ a4 _ (top _) _ e4, all_real _ _ a5 _ (top _) _ e5,
    all_real _ _ a6 _ (top _) _ e6⟩

end Cert.Mlp.Finite
-- ==== Proof.KerHost.lean ====
import proofs.«120801_g2000006315813370_pallasbulk_300_5_alg».proof.Proof.Gen.KernelIdeal.Frame
import proofs.«120801_g2000006315813370_pallasbulk_300_5_alg».proof.Proof.Spec
import Idealize.ShloMosaic.Lib.Pipeline.Value
import Idealize.ShloMosaic.Lib.ValueIdx
import Idealize.ShloMosaic.Lib.StableHlo.Run

/-! # The difference weights and bias the host lines compute

Before the region the program cuts the two columns of `w3` (a slice `[0:32, q:q+1]` reshaped to a vector), subtracts them in
both orders, and lays the two differences side by side as a `[32, 2]` matrix; likewise the two entries of `b3` as a `[1, 2]`
row. Read at an index these are the specification's `diffW` and `diffB`: entry `(k, q)` is `w3 (k, q) - w3 (k, 1 - q)`. -/

noncomputable section

namespace Cert.KernelIdeal.KerValue

open Cert.KernelIdeal Cert.KernelIdeal.Gen Idealize.ShloMosaic Idealize.ShloMosaic.TcCoe Idealize.ShloMosaic.ValueIdx Idealize.SL.Sem
open Cert.Mlp

/-! ## The weights -/

/-- Column 0 of a `[32, 2]` matrix as the host lines cut it. -/
def col0 (W : FVec Ideal S32x2 .f32) : FVec Ideal S32 .f32 :=
  shapeCast S32 (extractStridedSlice S32x1 ![0, 0] W slices_S32x2_S32x1_0_0) shapeCasts_S32x1_S32
/-- Column 1 likewise. -/
def col1 (W : FVec Ideal S32x2 .f32) : FVec Ideal S32 .f32 :=
  shapeCast S32 (extractStridedSlice S32x1 ![0, 1] W slices_S32x2_S32x1_0_1) shapeCasts_S32x1_S32

theorem col0_apply (W : FVec Ideal S32x2 .f32) (k : Fin 32) : col0 W (ix1 k) = W (ix2 k 0) := by
  unfold col0
  refine (shapeCast_apply _ shapeCasts_S32x1_S32 (ix1 k) (ix2 k (0 : Fin 1)) ?_).trans
    (extractStridedSlice_apply ![0, 0] W slices_S32x2_S32x1_0_0 (ix2 k (0 : Fin 1)) (ix2 k (0 : Fin 2)) fun a => ?_)
  · rw [Shape.rowMajor_val_two, Shape.rowMajor_val_one]
    show k.val * 1 + 0 = k.val
    omega
  · match a with
    | ⟨0, _⟩ => show k.val = 0 + k.val; omega
    | ⟨1, _⟩ => show 0 = 0 + 0; rfl

theorem col1_apply (W : FVec Ideal S32x2 .f32) (k : Fin 32) : col1 W (ix1 k) = W (ix2 k 1) := by
  unfold col1
  refine (shapeCast_apply _ shapeCasts_S32x1_S32 (ix1 k) (ix2 k (0 : Fin 1)) ?_).trans
    (extractStridedSlice_apply ![0, 1] W slices_S32x2_S32x1_0_1 (ix2 k (0 : Fin 1)) (ix2 k (1 : Fin 2)) fun a => ?_)
  · rw [Shape.rowMajor_val_two, Shape.rowMajor_val_one]
    show k.val * 1 + 0 = k.val
    omega
  · match a with
    | ⟨0, _⟩ => show k.val = 0 + k.val; omega
    | ⟨1, _⟩ => show 1 = 1 + 0; rfl

/-- The two differences of the columns, side by side. -/
def hostDiffW (W : FVec Ideal S32x2 .f32) : FVec Ideal S32x2 .f32 :=
  concatenate S32x2 1
    [⟨S32x1, broadcastInDim S32x1 ![0] bcast_S32_S32x1_0 (subf (col0 W) (col1 W))⟩,
      ⟨S32x1, broadcastInDim S32x1 ![0] bcast_S32_S32x1_0 (subf (col1 W) (col0 W))⟩]
    concatenates_S32x1_S32x1_S32x2_d1

/-- A vector laid as a one-column matrix reads the vector at the row. -/
theorem asColumn_apply (v : FVec Ideal S32 .f32) (k : Fin 32) :
    broadcastInDim S32x1 ![0] bcast_S32_S32x1_0 v (ix2 k (0 : Fin 1)) = v (ix1 k) :=
  broadcastInDim_apply ![0] bcast_S32_S32x1_0 v (ix2 k (0 : Fin 1)) (ix1 k) fun a => by
    match a with
    | ⟨0, _⟩ => rfl

theorem hostDiffW_apply (W : FVec Ideal S32x2 .f32) (k : Fin 32) (q : Fin 2) :
    hostDiffW W (ix2 k q) = diffW (fun k c => W (ix2 k c)) k q := by
  match q with
  | ⟨0, _⟩ =>
    show hostDiffW W (ix2 k (0 : Fin 2)) = W (ix2 k 0) - W (ix2 k 1)
    unfold hostDiffW
    refine (concatenate_pair_apply_left (t := S32x2) (s₁ := S32x1) (s₂ := S32x1) (1 : Fin 2) _ _ concatenates_S32x1_S32x1_S32x2_d1 (ix2 k (0 : Fin 2)) rfl (ix2 k (0 : Fin 1))
      (fun b => ?_)).trans ?_
    · match b with
      | ⟨0, _⟩ => rfl
      | ⟨1, _⟩ => rfl
    · rw [asColumn_apply, subf_apply, col0_apply, col1_apply]
  | ⟨1, _⟩ =>
    show hostDiffW W (ix2 k (1 : Fin 2)) = W (ix2 k 1) - W (ix2 k 0)
    unfold hostDiffW
    refine (concatenate_pair_apply_right (t := S32x2) (s₁ := S32x1) (s₂ := S32x1) (1 : Fin 2) _ _ concatenates_S32x1_S32x1_S32x2_d1 (ix2 k (1 : Fin 2)) rfl rfl (ix2 k (0 : Fin 1))
      (fun b hb => ?_) rfl).trans ?_
    · match b with
      | ⟨0, _⟩ => rfl
      | ⟨1, _⟩ => exact absurd rfl hb
    · rw [asColumn_apply, subf_apply, col1_apply, col0_apply]

/-! ## The bias -/

/-- Entry 0 of a `[1, 2]` row as the host lines cut it: a slice reshaped to a scalar. -/
def ent0 (B : FVec Ideal S1x2 .f32) : FVec Ideal S_ .f32 :=
  shapeCast S_ (extractStridedSlice S1x1 ![0, 0] B slices_S1x2_S1x1_0_0) shapeCasts_S1x1_S_
/-- Entry 1 likewise. -/
def ent1 (B : FVec Ideal S1x2 .f32) : FVec Ideal S_ .f32 :=
  shapeCast S_ (extractStridedSlice S1x1 ![0, 1] B slices_S1x2_S1x1_0_1) shapeCasts_S1x1_S_

/-- The rank-0 shape has one position. -/
theorem rowMajor_scalar (j : S_.Idx) : (S_.rowMajor j).val = 0 := by
  have h := (S_.rowMajor j).isLt
  have h1 : S_.numel = 1 := by decide
  omega

theorem ent0_apply (B : FVec Ideal S1x2 .f32) : ent0 B ix0 = B (ix2 0 0) := by
  unfold ent0
  refine (shapeCast_apply _ shapeCasts_S1x1_S_ ix0 (ix2 (0 : Fin 1) (0 : Fin 1)) ?_).trans
    (extractStridedSlice_apply ![0, 0] B slices_S1x2_S1x1_0_0 (ix2 (0 : Fin 1) (0 : Fin 1)) (ix2 (0 : Fin 1) (0 : Fin 2)) fun a => ?_)
  · rw [Shape.rowMajor_val_two, rowMajor_scalar]
    rfl
  · match a with
    | ⟨0, _⟩ => rfl
    | ⟨1, _⟩ => rfl

theorem ent1_apply (B : FVec Ideal S1x2 .f32) : ent1 B ix0 = B (ix2 0 1) := by
  unfold ent1
  refine (shapeCast_apply _ shapeCasts_S1x1_S_ ix0 (ix2 (0 : Fin 1) (0 : Fin 1)) ?_).trans
    (extractStridedSlice_apply ![0, 1] B slices_S1x2_S1x1_0_1 (ix2 (0 : Fin 1) (0 : Fin 1)) (ix2 (0 : Fin 1) (1 : Fin 2)) fun a => ?_)
  · rw [Shape.rowMajor_val_two, rowMajor_scalar]
    rfl
  · match a with
    | ⟨0, _⟩ => rfl
    | ⟨1, _⟩ => rfl

/-- The two differences of the entries, as a `[1, 2]` row. -/
def hostDiffB (B : FVec Ideal S1x2 .f32) : FVec Ideal S1x2 .f32 :=
  shapeCast S1x2
    (concatenate S2 0
      [⟨S1, broadcastInDim S1 ![] bcast_S_S1 (subf (ent0 B) (ent1 B))⟩,
        ⟨S1, broadcastInDim S1 ![] bcast_S_S1 (subf (ent1 B) (ent0 B))⟩]
      concatenates_S1_S1_S2_d0)
    shapeCasts_S2_S1x2

/-- A scalar laid as a one-entry vector reads the scalar. -/
theorem asVector_apply (v : FVec Ideal S_ .f32) : broadcastInDim S1 ![] bcast_S_S1 v (ix1 (0 : Fin 1)) = v ix0 :=
  broadcastInDim_apply ![] bcast_S_S1 v (ix1 (0 : Fin 1)) ix0 fun a => a.elim0

theorem hostDiffB_apply (B : FVec Ideal S1x2 .f32) (q : Fin 2) :
    hostDiffB B (ix2 0 q) = diffB (fun c => B (ix2 0 c)) q := by
  unfold hostDiffB
  refine (shapeCast_apply _ shapeCasts_S2_S1x2 (ix2 (0 : Fin 1) q) (ix1 q) ?_).trans ?_
  · rw [Shape.rowMajor_val_two, Shape.rowMajor_val_one]
    show q.val = 0 * 2 + q.val
    omega
  match q with
  | ⟨0, _⟩ =>
    show _ = B (ix2 0 0) - B (ix2 0 1)
    refine (concatenate_pair_apply_left (t := S2) (s₁ := S1) (s₂ := S1) (0 : Fin 1) _ _ concatenates_S1_S1_S2_d0 (ix1 (0 : Fin 2)) rfl (ix1 (0 : Fin 1))
      (fun b => ?_)).trans ?_
    · match b with
      | ⟨0, _⟩ => rfl
    · rw [asVector_apply, subf_apply, ent0_apply, ent1_apply]
  | ⟨1, _⟩ =>
    show _ = B (ix2 0 1) - B (ix2 0 0)
    refine (concatenate_pair_apply_right (t := S2) (s₁ := S1) (s₂ := S1) (0 : Fin 1) _ _ concatenates_S1_S1_S2_d0 (ix1 (1 : Fin 2)) rfl rfl (ix1 (0 : Fin 1))
      (fun b hb => ?_) rfl).trans ?_
    · match b with
      | ⟨0, _⟩ => exact absurd rfl hb
    · rw [asVector_apply, subf_apply, ent1_apply, ent0_apply]

/-! ## What the region finds in the two buffers -/

variable (m : (ℓ : Loc nD τ sig) → Buf (Elt Ideal) ℓ)

/-- The sixth operand of the region holds the difference weights of `w3`. -/
theorem V_diffW (c : Dev nD) : (V m c main_v12 : S32x2.Idx → EReal) = hostDiffW (m ((c : Thread nD τ).loc main_arg5)) := by
  dsimp only [Gen.V, Gen.hostOps0]
  after_results
  rfl

set_option maxHeartbeats 2000000 in
/-- The seventh operand holds the difference bias of `b3`. -/
theorem V_diffB (c : Dev nD) : (V m c main_v26 : S1x2.Idx → EReal) = hostDiffB (m ((c : Thread nD τ).loc main_arg6)) := by
  dsimp only [Gen.V, Gen.hostOps0]
  after_results
  rfl

/-- The last layer's weights the region is launched on are the difference weights. -/
theorem weights_eq (c : Dev nD) :
    (fun (k : Fin 32) (q : Fin 2) => (V m c main_v12 : S32x2.Idx → EReal) (ix2 k q))
      = diffW fun k q => (m ((c : Thread nD τ).loc main_arg5) : S32x2.Idx → EReal) (ix2 k q) := by
  funext k q
  rw [V_diffW]
  exact hostDiffW_apply _ k q

/-- Its bias is the difference bias. -/
theorem bias_eq (c : Dev nD) :
    (fun (q : Fin 2) => (V m c main_v26 : S1x2.Idx → EReal) (ix2 0 q))
      = diffB fun q => (m ((c : Thread nD τ).loc main_arg6) : S1x2.Idx → EReal) (ix2 0 q) := by
  funext q
  rw [V_diffB]
  exact hostDiffB_apply _ q

end Cert.KernelIdeal.KerValue

end
-- ==== Proof.LibMatmulPlain.lean ====
import Idealize.ShloMosaic.PureOps.Ideal.Laws
import Idealize.ShloMosaic.Lib.ValueIdx

/-! # A plain matrix product read at an index

A `tpu.matmul` whose dimension numbers are those of the plain product of an `[M, K]` matrix with a `[K, N]` matrix
(the left operand's axis 1 contracted against the right operand's axis 0, no batch axis), accumulated into the zero
splat, is at the extended reals the textbook sum: the entry at row `i` and column `j` is `∑ k, lhs (i, k) * rhs (k, j)`
over `k : Fin K`. `IsPlain d` states the six lists of the dimension numbers; for a printed record each field is `rfl`. -/

open scoped BigOperators

namespace Idealize.ShloMosaic.MatmulPlain

open Idealize.ShloMosaic Idealize.ShloMosaic.ValueIdx

variable {M K N : ℕ}

/-- The dimension numbers of a plain product `[M, K] × [K, N] → [M, N]`. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![M, K]⟩ ⟨2, ![K, N]⟩ ⟨2, ![M, N]⟩}

/-- One axis is contracted. -/
theorem contr_rank (h : IsPlain d) : d.contr.rank = 1 := by rw [d.rank_contr, h.lc]; rfl

/-- Its extent is the inner dimension `K`. -/
theorem contr_size (h : IsPlain d) : d.contr.size ⟨0, by rw [contr_rank h]; exact Nat.one_pos⟩ = K := by
  have hp : 0 < d.lhsContracting.length := by rw [h.lc]; exact Nat.one_pos
  rw [d.size_contr 0 hp, List.getElem_of_eq h.lc hp]
  rfl

/-- A coordinate of an index depends on the axis's number only. -/
private theorem coord_congr {s : Shape} (i : s.Idx) (p p' : Nat) (hp : p < s.rank) (hp' : p' < s.rank) (e : p = p') :
    (i ⟨p, hp⟩).val = (i ⟨p', hp'⟩).val := by subst e; rfl

/-- The left operand's row is the result's row. -/
theorem lhs_row (h : IsPlain d) (i : (⟨2, ![M, N]⟩ : Shape).Idx) (q : d.contr.Idx) : (d.lhsIdx i q 0).val = (i 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact coord_congr i _ _ _ _ (by simp [h.lb, h.ln])

/-- The left operand's column is the contraction position. -/
theorem lhs_col (h : IsPlain d) (i : (⟨2, ![M, N]⟩ : Shape).Idx) (q : d.contr.Idx) :
    (d.lhsIdx i q 1).val = (q ⟨0, by rw [contr_rank h]; exact Nat.one_pos⟩).val :=
  d.lhsIdx_val_of_single h.lc i q

/-- The right operand's row is the contraction position. -/
theorem rhs_row (h : IsPlain d) (i : (⟨2, ![M, N]⟩ : Shape).Idx) (q : d.contr.Idx) :
    (d.rhsIdx i q 0).val = (q ⟨0, by rw [contr_rank h]; exact Nat.one_pos⟩).val :=
  d.rhsIdx_val_of_single h.rc i q

/-- The right operand's column is the result's column. -/
theorem rhs_col (h : IsPlain d) (i : (⟨2, ![M, N]⟩ : Shape).Idx) (q : d.contr.Idx) : (d.rhsIdx i q 1).val = (i 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact coord_congr i _ _ _ _ (by simp [h.lb, h.ln, h.rn])

/-- THE PLAIN PRODUCT AT AN INDEX: into the zero accumulator, entry `(i, j)` is `∑ k, lhs (i, k) * rhs (k, j)`. -/
theorem matmul_zero_apply (h : IsPlain d) (prec : Option ContractPrecision) {φ₁ φ₂ : FTy}
    (lhs : FVec Ideal ⟨2, ![M, K]⟩ φ₁) (rhs : FVec Ideal ⟨2, ![K, N]⟩ φ₂) (i : Fin M) (j : Fin N) :
    matmul d prec lhs rhs (constant ⟨2, ![M, N]⟩ .f32 0x00000000#32) (ix2 i j) = ∑ k : Fin K, lhs (ix2 i k) * rhs (ix2 k j) := by
  rw [matmul, Ideal.matmul_constant_zero_apply, ← Equiv.sum_comp (contrEquiv1 d K (contr_rank h) (contr_size h)).symm]
  refine Finset.sum_congr rfl fun k _ => ?_
  have hk := contrEquiv1_symm_val d K (contr_rank h) (contr_size h) k
  have el : d.lhsIdx (ix2 i j) ((contrEquiv1 d K (contr_rank h) (contr_size h)).symm k) = ix2 i k := funext fun a => Fin.ext (by
    match a with
    | ⟨0, _⟩ => exact lhs_row h _ _
    | ⟨1, _⟩ => exact (lhs_col h _ _).trans hk)
  have er : d.rhsIdx (ix2 i j) ((contrEquiv1 d K (contr_rank h) (contr_size h)).symm k) = ix2 k j := funext fun a => Fin.ext (by
    match a with
    | ⟨0, _⟩ => exact (rhs_row h _ _).trans hk
    | ⟨1, _⟩ => exact rhs_col h _ _)
  rw [el, er]

end Idealize.ShloMosaic.MatmulPlain
-- ==== Proof.KerPayload.lean ====
import proofs.«120801_g2000006315813370_pallasbulk_300_5_alg».proof.Proof.Gen.KernelIdeal.Skeleton
import proofs.«120801_g2000006315813370_pallasbulk_300_5_alg».proof.Proof.Spec
import proofs.«120801_g2000006315813370_pallasbulk_300_5_alg».proof.Proof.LibMatmulPlain
import Idealize.ShloMosaic.Lib.Pipeline.Value
import Idealize.ShloMosaic.Lib.ValueIdx
import Idealize.ShloMosaic.PureOps.Ideal.Laws
import Idealize.ShloMosaic.PureOps.IdealRules

/-! # The logistic body's stored value, entry by entry

The body stores ONE value: `1 / (1 + exp (0 - z))` where `z` is the third affine layer of the two relu layers of the loaded
batch block. Read at row `p` of the block and class `q`, each `tpu.matmul` into the zero splat is the plain sum over the inner
dimension, a bias row broadcast over the rows reads the bias at the column, and what is left is the row function
`sigOut (hidden …) …` of the specification. The two float literals are `0` and `1`. -/

open scoped BigOperators

noncomputable section

namespace Cert.KernelIdeal.KerValue

open Cert.KernelIdeal Cert.KernelIdeal.Gen Idealize.ShloMosaic Idealize.ShloMosaic.ValueIdx Idealize.ShloMosaic.MatmulPlain Cert.Mlp

/-- The pattern `0x3F800000` is the number one. -/
theorem one_f32 : Ideal.ofBits .f32 0x3F800000#32 = 1 := IdealRules.sign_bit.ideal_onePat .f32

theorem scalar_zero : Scalar.ofBits (F := Ideal) .f32 0x00000000#32 = (0 : EReal) := Ideal.ofBits_zero_f32
theorem scalar_one : Scalar.ofBits (F := Ideal) .f32 0x3F800000#32 = (1 : EReal) := one_f32

/-- The elementwise exponential at an index. -/
theorem exp_apply {s : Shape} (v : FVec Ideal s .f32) (i : s.Idx) : Idealize.ShloMosaic.exp v i = Ideal.exp (v i) := rfl

/-- A 32-wide bias row broadcast over the block's rows reads the bias at the column. -/
theorem bias32_apply (b : FVec Ideal S1x32 .f32) (p : Fin 8192) (j : Fin 32) :
    broadcastTo S8192x32 b broadcasts_S1x32_S8192x32 (ix2 p j) = b (ix2 0 j) :=
  broadcastTo_apply b broadcasts_S1x32_S8192x32 (ix2 p j) (ix2 0 j) (fun a => by
    match a with
    | ⟨0, _⟩ => rfl
    | ⟨1, _⟩ => rfl)

/-- The 2-wide bias row likewise. -/
theorem bias2_apply (b : FVec Ideal S1x2 .f32) (p : Fin 8192) (j : Fin 2) :
    broadcastTo S8192x2 b broadcasts_S1x2_S8192x2 (ix2 p j) = b (ix2 0 j) :=
  broadcastTo_apply b broadcasts_S1x2_S8192x2 (ix2 p j) (ix2 0 j) (fun a => by
    match a with
    | ⟨0, _⟩ => rfl
    | ⟨1, _⟩ => rfl)

theorem plain1 : IsPlain dot_S8192x4_S4x32_S8192x32_1_0_0_1_n_n := ⟨rfl, rfl, rfl, rfl, rfl, rfl⟩
theorem plain2 : IsPlain dot_S8192x32_S32x32_S8192x32_1_0_0_1_n_n := ⟨rfl, rfl, rfl, rfl, rfl, rfl⟩
theorem plain3 : IsPlain dot_S8192x32_S32x2_S8192x2_1_0_0_1_n_n := ⟨rfl, rfl, rfl, rfl, rfl, rfl⟩

/-- THE STORED VALUE at row `p` of the block and class `q`: the logistic of the last affine layer of the row's hidden
    activations, every operand read where the block's row and the weights' entries are. -/
theorem pay_apply (x0 : Vec Ideal S8192x4 .f32) (x1 : Vec Ideal S4x32 .f32) (x3 : Vec Ideal S1x32 .f32) (x8 : Vec Ideal S32x32 .f32)
    (x10 : Vec Ideal S1x32 .f32) (x15 : Vec Ideal S32x2 .f32) (x18 : Vec Ideal S1x2 .f32) (p : Fin 8192) (q : Fin 2) :
    k0_pay1 (F := Ideal) x0 x1 x3 x8 x10 x15 x18 (ix2 p q)
      = sigOut (hidden (fun k => x0 (ix2 p k)) (fun k j => x1 (ix2 k j)) (fun j => x3 (ix2 0 j)) (fun k j => x8 (ix2 k j))
          (fun j => x10 (ix2 0 j))) (fun k c => x15 (ix2 k c)) (fun c => x18 (ix2 0 c)) q := by
  unfold k0_pay1
  simp only [divf_apply, addf_apply, subf_apply, maximumf_apply, broadcast_apply, exp_apply, shapeCast_self,
    matmul_zero_apply plain1, matmul_zero_apply plain2, matmul_zero_apply plain3, bias32_apply, bias2_apply,
    scalar_zero, scalar_one]
  rfl

end Cert.KernelIdeal.KerValue

end
-- ==== Proof.KerValue.lean ====
import proofs.«120801_g2000006315813370_pallasbulk_300_5_alg».proof.Defs
import proofs.«120801_g2000006315813370_pallasbulk_300_5_alg».proof.Proof.Gen.KernelIdeal.Value
import proofs.«120801_g2000006315813370_pallasbulk_300_5_alg».proof.Proof.Spec
import proofs.«120801_g2000006315813370_pallasbulk_300_5_alg».proof.Proof.KerPayload

/-! # The logistic program's result array

The grid has 256 points; point `t` is handed rows `8192 t … 8192 t + 8191` of the batch (all four features) and the whole of
every weight and bias array, and writes back rows `8192 t … 8192 t + 8191` of the result (both classes). What it writes
is, entry by entry, the specification's `sigRegion` of the arrays the region is launched on; the 256 blocks tile the
result, so the result array IS `sigRegion` of those arrays. -/

noncomputable section

namespace Cert.KernelIdeal.KerValue

open Cert.KernelIdeal Cert.KernelIdeal.Gen Idealize.ShloMosaic Idealize.ShloMosaic.TcCoe Idealize.ShloMosaic.ValueIdx Idealize.SL.Sem
open Idealize.ShloMosaic.Pipeline (Dat)
open Cert.Mlp

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the grid: the batch window and the result window sit at block row `t`, block
    column 0; every weight and bias window sits at block (0, 0). -/
theorem idx_facts : ∀ t : Fin cfg0.N,
    win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem lt_grid (t : Fin cfg0.N) : t.val < 256 := lt_of_lt_of_eq t.isLt N_0

/-- The payload over blocks that ARE the arrays read at the point's rows: entry `(p, q)` of the stored block is the
    specification at row `8192 t + p`, class `q`. -/
theorem pay_block (A0 : Arr 2097152 4) (A1 : Arr 4 32) (A2 : Arr 1 32) (A3 : Arr 32 32) (A4 : Arr 1 32) (A5 : Arr 32 2) (A6 : Arr 1 2)
    (x0 : Vec Ideal S8192x4 .f32) (x1 : Vec Ideal S4x32 .f32) (x2 : Vec Ideal S1x32 .f32) (x3 : Vec Ideal S32x32 .f32)
    (x4 : Vec Ideal S1x32 .f32) (x5 : Vec Ideal S32x2 .f32) (x6 : Vec Ideal S1x2 .f32) (r : Fin 2097152) (p : Fin 8192)
    (h0 : ∀ k : Fin 4, x0 (ix2 p k) = A0 (ix2 r k)) (h1 : ∀ (k : Fin 4) (j : Fin 32), x1 (ix2 k j) = A1 (ix2 k j))
    (h2 : ∀ j : Fin 32, x2 (ix2 0 j) = A2 (ix2 0 j)) (h3 : ∀ k j : Fin 32, x3 (ix2 k j) = A3 (ix2 k j))
    (h4 : ∀ j : Fin 32, x4 (ix2 0 j) = A4 (ix2 0 j)) (h5 : ∀ (k : Fin 32) (q : Fin 2), x5 (ix2 k q) = A5 (ix2 k q))
    (h6 : ∀ q : Fin 2, x6 (ix2 0 q) = A6 (ix2 0 q)) (q : Fin 2) :
    k0_pay1 (F := Ideal) x0 x1 x2 x3 x4 x5 x6 (ix2 p q) = sigRegion A0 A1 A2 A3 A4 A5 A6 (ix2 r q) := by
  refine (pay_apply x0 x1 x2 x3 x4 x5 x6 p q).trans ?_
  show _ = sigOut (hidden (fun k => A0 (ix2 r k)) (fun k j => A1 (ix2 k j)) (fun j => A2 (ix2 0 j)) (fun k j => A3 (ix2 k j))
    (fun j => A4 (ix2 0 j))) (fun k c => A5 (ix2 k c)) (fun c => A6 (ix2 0 c)) q
  simp only [h0, h1, h2, h3, h4, h5, h6]

/-- An element of a whole-array window's block sits in the array where it sits in the block. -/
theorem emb_whole {a b : ℕ} (e : (⟨2, ![a, b]⟩ : Shape).Idx) (i0 i1 : ℕ) (h0 : i0 = 0) (h1 : i1 = 0) (y : (⟨2, ![a, b]⟩ : Shape).Idx)
    (he0 : (e 0).val = i0 * a + 1 * (y 0).val) (he1 : (e 1).val = i1 * b + 1 * (y 1).val) : e = y := by
  subst h0 h1
  funext d
  apply Fin.ext
  match d with
  | ⟨0, _⟩ => show (e 0).val = (y 0).val; rw [he0]; omega
  | ⟨1, _⟩ => show (e 1).val = (y 1).val; rw [he1]; omega

/-- WHAT POINT `t` WRITES BACK is block `t` of `sigRegion` of the arrays as the region finds them. -/
theorem flushed_eq (c : Dev nD) (t : Fin cfg0.N) :
    (dats m 0 c).flushed 7 t = ((cfg0.win 7).blk t).view.read (Elt Ideal)
      (sigRegion (V m c main_arg0) (V m c main_arg1) (V m c main_arg2) (V m c main_arg3) (V m c main_arg4) (V m c main_v12) (V m c main_v26)) := by
  rw [Value.flushed7]
  unfold out0_7
  rw [View.canon_unit_zero hz]
  simp only [View.ld_unit_zero (S := S8192x4) hz, View.ld_unit_zero (S := S4x32) hz, View.ld_unit_zero (S := S1x32) hz,
    View.ld_unit_zero (S := S32x32) hz, View.ld_unit_zero (S := S32x2) hz, View.ld_unit_zero (S := S1x2) hz]
  obtain ⟨a0, a1, o0, o1, b10, b11, b20, b21, b30, b31, b40, b41, b50, b51, b60, b61⟩ := idx_facts t
  have ht := lt_grid t
  funext j
  obtain ⟨p, q, rfl⟩ : ∃ (p : Fin 8192) (q : Fin 2), j = ix2 p q := ⟨j 0, j 1, eq_ix2 j⟩
  show k0_pay1 (F := Ideal) (iblk m c 0 t) (iblk m c 1 t) (iblk m c 2 t) (iblk m c 3 t) (iblk m c 4 t) (iblk m c 5 t) (iblk m c 6 t) (ix2 p q)
    = sigRegion (V m c main_arg0) (V m c main_arg1) (V m c main_arg2) (V m c main_arg3) (V m c main_arg4) (V m c main_v12) (V m c main_v26)
        (((cfg0.win 7).blk t).view.emb (ix2 p q))
  have hr : t.val * 8192 + p.val < 2097152 := by have := p.isLt; omega
  have hemb : ((cfg0.win 7).blk t).view.emb (ix2 p q) = ix2 (⟨t.val * 8192 + p.val, hr⟩ : Fin 2097152) q := by
    funext d; apply Fin.ext
    match d with
    | ⟨0, _⟩ => show win0_7.index t (0 : Fin 2) * 8192 + 1 * p.val = t.val * 8192 + p.val; rw [o0]; omega
    | ⟨1, _⟩ => show win0_7.index t (1 : Fin 2) * 2 + 1 * q.val = q.val; rw [o1]; omega
  rw [hemb]
  refine pay_block (V m c main_arg0) (V m c main_arg1) (V m c main_arg2) (V m c main_arg3) (V m c main_arg4) (V m c main_v12) (V m c main_v26)
    (iblk m c 0 t) (iblk m c 1 t) (iblk m c 2 t) (iblk m c 3 t) (iblk m c 4 t) (iblk m c 5 t) (iblk m c 6 t) ⟨t.val * 8192 + p.val, hr⟩ p
    ?_ ?_ ?_ ?_ ?_ ?_ ?_ q
  · intro k
    show V m c main_arg0 (((cfg0.win 0).blk t).view.emb (ix2 p k)) = V m c main_arg0 (ix2 ⟨t.val * 8192 + p.val, hr⟩ k)
    refine congrArg _ (funext fun d => Fin.ext ?_)
    match d with
    | ⟨0, _⟩ => show win0_0.index t (0 : Fin 2) * 8192 + 1 * p.val = t.val * 8192 + p.val; rw [a0]; omega
    | ⟨1, _⟩ => show win0_0.index t (1 : Fin 2) * 4 + 1 * k.val = k.val; rw [a1]; omega
  · intro k j
    show V m c main_arg1 (((cfg0.win 1).blk t).view.emb (ix2 k j)) = V m c main_arg1 (ix2 k j)
    exact congrArg _ (emb_whole _ _ _ b10 b11 (ix2 k j) rfl rfl)
  · intro j
    show V m c main_arg2 (((cfg0.win 2).blk t).view.emb (ix2 0 j)) = V m c main_arg2 (ix2 0 j)
    exact congrArg _ (emb_whole _ _ _ b20 b21 (ix2 0 j) rfl rfl)
  · intro k j
    show V m c main_arg3 (((cfg0.win 3).blk t).view.emb (ix2 k j)) = V m c main_arg3 (ix2 k j)
    exact congrArg _ (emb_whole _ _ _ b30 b31 (ix2 k j) rfl rfl)
  · intro j
    show V m c main_arg4 (((cfg0.win 4).blk t).view.emb (ix2 0 j)) = V m c main_arg4 (ix2 0 j)
    exact congrArg _ (emb_whole _ _ _ b40 b41 (ix2 0 j) rfl rfl)
  · intro k j
    show V m c main_v12 (((cfg0.win 5).blk t).view.emb (ix2 k j)) = V m c main_v12 (ix2 k j)
    exact congrArg _ (emb_whole _ _ _ b50 b51 (ix2 k j) rfl rfl)
  · intro j
    show V m c main_v26 (((cfg0.win 6).blk t).view.emb (ix2 0 j)) = V m c main_v26 (ix2 0 j)
    exact congrArg _ (emb_whole _ _ _ b60 b61 (ix2 0 j) rfl rfl)

/-- An index of the result is in point `t`'s block iff each coordinate is in the block's range on its axis. -/
theorem mem_blk (t : Fin cfg0.N) (i : S2097152x2.Idx) :
    i ∈ ((cfg0.win 7).blk t).view.set ↔ ∀ a : Fin 2, win0_7.index t a * S8192x2.size a ≤ (i a).val ∧ (i a).val < win0_7.index t a * S8192x2.size a + S8192x2.size a := by
  show i ∈ ((View.whole main_v27).slice (win0_7.rect t)).set ↔ _
  rw [View.set_slice_whole, Rect.mem_set_unit]
  exact Iff.rfl

/-- Every row of the result lies in the block of the point `row / 8192`. -/
theorem cover (i : S2097152x2.Idx) : ∃ t : Fin cfg0.N, (cfg0.win 7).flush t = true ∧ i ∈ ((cfg0.win 7).blk t).view.set := by
  have hi0 : (i 0).val < 2097152 := (i 0).isLt
  have hi1 : (i 1).val < 2 := (i 1).isLt
  have hN : cfg0.N = 256 := N_0
  have ht : (i 0).val / 8192 < cfg0.N := by rw [hN]; omega
  obtain ⟨-, -, o0, o1, -⟩ := idx_facts ⟨(i 0).val / 8192, ht⟩
  refine ⟨⟨(i 0).val / 8192, ht⟩, flush0_7 _, ?_⟩
  rw [mem_blk]
  intro a
  match a with
  | ⟨0, _⟩ =>
    show win0_7.index ⟨(i 0).val / 8192, ht⟩ (0 : Fin 2) * 8192 ≤ (i 0).val ∧ (i 0).val < win0_7.index ⟨(i 0).val / 8192, ht⟩ (0 : Fin 2) * 8192 + 8192
    rw [o0]; show (i 0).val / 8192 * 8192 ≤ (i 0).val ∧ (i 0).val < (i 0).val / 8192 * 8192 + 8192; omega
  | ⟨1, _⟩ =>
    show win0_7.index ⟨(i 0).val / 8192, ht⟩ (1 : Fin 2) * 2 ≤ (i 1).val ∧ (i 1).val < win0_7.index ⟨(i 0).val / 8192, ht⟩ (1 : Fin 2) * 2 + 2
    rw [o1]; omega

/-- THE RESULT ARRAY after the run is `sigRegion` of the arrays the region is launched on. -/
theorem final (c : Dev nD) : (dats m 0 c).arrAt 7 cfg0.N
    = sigRegion (V m c main_arg0) (V m c main_arg1) (V m c main_arg2) (V m c main_arg3) (V m c main_arg4) (V m c main_v12) (V m c main_v26) :=
  (dats m 0 c).arrAt_eq_of_cover 7 _ (fun t _ => flushed_eq m c t) cover

/-- The run, read: the result is `sigRegion` of the five arguments the region reads as launched and of the difference
    weights and bias the host lines before it computed; the arguments end unchanged. -/
theorem run : θ_run defs (onTc (τ := τ) (main (F := Ideal))) ⟨m, fun _ => 0, ρ⟩ fun r => ∀ c : Dev nD,
      r.2.mem ((c : Thread nD τ).loc main_v27)
        = sigRegion (m ((c : Thread nD τ).loc main_arg0)) (m ((c : Thread nD τ).loc main_arg1)) (m ((c : Thread nD τ).loc main_arg2))
            (m ((c : Thread nD τ).loc main_arg3)) (m ((c : Thread nD τ).loc main_arg4)) (V m c main_v12) (V m c main_v26)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (by
      rw [V_main_arg0, V_main_arg1, V_main_arg2, V_main_arg3, V_main_arg4])), (h c).2⟩)
    (Value.run_blocks m ρ)

end Cert.KernelIdeal.KerValue

end
-- ==== Proof.RefHost.lean ====
import proofs.«120801_g2000006315813370_pallasbulk_300_5_alg».proof.Proof.Gen.ReferenceIdeal.Frame
import Idealize.ShloMosaic.Lib.Pipeline.Value
import Idealize.ShloMosaic.Lib.ValueIdx

/-! # The arrays the region is launched on

Before its one region the program transposes the batch `x` and the three weight matrices, and turns each bias row
`[1, n]` into a column `[n, 1]`. This module reads each of those seven arrays at an index, in terms of the argument
it was made from:

* entry `(k, r)` of the transposed batch is entry `(r, k)` of `x`, and entry `(j, k)` of a transposed weight matrix is
  entry `(k, j)` of the matrix (a transposition with permutation `[1, 0]` swaps the two coordinates);
* entry `(j, 0)` of a bias column is entry `(0, j)` of the bias row (a reshape keeps the row-major position, and the
  position of `(j, 0)` in `[n, 1]` and of `(0, j)` in `[1, n]` are both `j`). -/

noncomputable section

namespace Cert.ReferenceIdeal.RefHost

open Cert.ReferenceIdeal Cert.ReferenceIdeal.Gen Idealize.ShloMosaic Idealize.ShloMosaic.TcCoe Idealize.ShloMosaic.ValueIdx
open Idealize.SL.Sem

variable (m : (ℓ : Loc nD τ sig) → Buf (Elt Ideal) ℓ)

/-! ## Each array as one operation of an argument -/

/-- The batch, feature-major: the transposition of `x`. -/
theorem xT_eq (c : Dev nD) : (V m c main_v0 : S4x2097152.Idx → EReal)
    = transpose S4x2097152 [1, 0] (m ((c : Thread nD τ).loc main_arg0)) transposes_S2097152x4_S4x2097152_1_0 := by
  show StableHlo.after hostOps0 (fun b => m (c, b)) (Proc.devRef .tc main_v0) = _
  after_results

/-- The first layer's weights, transposed. -/
theorem w1T_eq (c : Dev nD) : (V m c main_v1 : S32x4.Idx → EReal)
    = transpose S32x4 [1, 0] (m ((c : Thread nD τ).loc main_arg1)) transposes_S4x32_S32x4_1_0 := by
  show StableHlo.after hostOps0 (fun b => m (c, b)) (Proc.devRef .tc main_v1) = _
  after_results

/-- The second layer's weights, transposed. -/
theorem w2T_eq (c : Dev nD) : (V m c main_v2 : S32x32.Idx → EReal)
    = transpose S32x32 [1, 0] (m ((c : Thread nD τ).loc main_arg3)) transposes_S32x32_S32x32_1_0 := by
  show StableHlo.after hostOps0 (fun b => m (c, b)) (Proc.devRef .tc main_v2) = _
  after_results

/-- The last layer's weights, transposed. -/
theorem w3T_eq (c : Dev nD) : (V m c main_v3 : S2x32.Idx → EReal)
    = transpose S2x32 [1, 0] (m ((c : Thread nD τ).loc main_arg5)) transposes_S32x2_S2x32_1_0 := by
  show StableHlo.after hostOps0 (fun b => m (c, b)) (Proc.devRef .tc main_v3) = _
  after_results

/-- The first layer's bias, as a column. -/
theorem b1T_eq (c : Dev nD) : (V m c main_v4 : S32x1.Idx → EReal)
    = shapeCast S32x1 (m ((c : Thread nD τ).loc main_arg2)) shapeCasts_S1x32_S32x1 := by
  show StableHlo.after hostOps0 (fun b => m (c, b)) (Proc.devRef .tc main_v4) = _
  after_results
  rfl

/-- The second layer's bias, as a column. -/
theorem b2T_eq (c : Dev nD) : (V m c main_v5 : S32x1.Idx → EReal)
    = shapeCast S32x1 (m ((c : Thread nD τ).loc main_arg4)) shapeCasts_S1x32_S32x1 := by
  show StableHlo.after hostOps0 (fun b => m (c, b)) (Proc.devRef .tc main_v5) = _
  after_results
  rfl

/-- The last layer's bias, as a column. -/
theorem b3T_eq (c : Dev nD) : (V m c main_v6 : S2x1.Idx → EReal)
    = shapeCast S2x1 (m ((c : Thread nD τ).loc main_arg6)) shapeCasts_S1x2_S2x1 := by
  show StableHlo.after hostOps0 (fun b => m (c, b)) (Proc.devRef .tc main_v6) = _
  after_results
  rfl

/-! ## The two operations at an index, over arrays of literal shapes -/

/-- A transposed matrix at `(a, b)` is the matrix at `(b, a)`. -/
theorem transpose_swap {p q : ℕ} (x : (⟨2, ![p, q]⟩ : Shape).Idx → EReal)
    (h : (⟨2, ![p, q]⟩ : Shape).Transposes [1, 0] ⟨2, ![q, p]⟩) (a : Fin q) (b : Fin p) :
    transpose ⟨2, ![q, p]⟩ [1, 0] x h (ix2 a b) = x (ix2 b a) :=
  transpose_apply [1, 0] x h (ix2 a b) (ix2 b a) fun d => by
    match d with
    | ⟨0, _⟩ => rfl
    | ⟨1, _⟩ => rfl

/-- A row `[1, n]` reshaped to a column `[n, 1]`: entry `(j, 0)` is entry `(0, j)`. -/
theorem column_of_row {n : ℕ} (x : (⟨2, ![1, n]⟩ : Shape).Idx → EReal)
    (h : (⟨2, ![1, n]⟩ : Shape).ShapeCasts ⟨2, ![n, 1]⟩) (j : Fin n) :
    shapeCast ⟨2, ![n, 1]⟩ x h (ix2 j 0) = x (ix2 0 j) :=
  shapeCast_apply x h (ix2 j 0) (ix2 0 j) (by
    rw [Shape.rowMajor_val_two, Shape.rowMajor_val_two]
    show (0 : ℕ) * n + j.val = j.val * 1 + 0
    omega)

/-! ## The seven arrays at an index -/

theorem xT_apply (c : Dev nD) (k : Fin 4) (r : Fin 2097152) :
    V m c main_v0 (ix2 k r) = m ((c : Thread nD τ).loc main_arg0) (ix2 r k) :=
  (congrFun (xT_eq m c) (ix2 k r)).trans (transpose_swap _ _ k r)

theorem w1T_apply (c : Dev nD) (j : Fin 32) (k : Fin 4) :
    V m c main_v1 (ix2 j k) = m ((c : Thread nD τ).loc main_arg1) (ix2 k j) :=
  (congrFun (w1T_eq m c) (ix2 j k)).trans (transpose_swap _ _ j k)

theorem w2T_apply (c : Dev nD) (j k : Fin 32) :
    V m c main_v2 (ix2 j k) = m ((c : Thread nD τ).loc main_arg3) (ix2 k j) :=
  (congrFun (w2T_eq m c) (ix2 j k)).trans (transpose_swap _ _ j k)

theorem w3T_apply (c : Dev nD) (a : Fin 2) (k : Fin 32) :
    V m c main_v3 (ix2 a k) = m ((c : Thread nD τ).loc main_arg5) (ix2 k a) :=
  (congrFun (w3T_eq m c) (ix2 a k)).trans (transpose_swap _ _ a k)

theorem b1T_apply (c : Dev nD) (j : Fin 32) :
    V m c main_v4 (ix2 j 0) = m ((c : Thread nD τ).loc main_arg2) (ix2 0 j) :=
  (congrFun (b1T_eq m c) (ix2 j 0)).trans (column_of_row _ _ j)

theorem b2T_apply (c : Dev nD) (j : Fin 32) :
    V m c main_v5 (ix2 j 0) = m ((c : Thread nD τ).loc main_arg4) (ix2 0 j) :=
  (congrFun (b2T_eq m c) (ix2 j 0)).trans (column_of_row _ _ j)

theorem b3T_apply (c : Dev nD) (a : Fin 2) :
    V m c main_v6 (ix2 a 0) = m ((c : Thread nD τ).loc main_arg6) (ix2 0 a) :=
  (congrFun (b3T_eq m c) (ix2 a 0)).trans (column_of_row _ _ a)

end Cert.ReferenceIdeal.RefHost

end
-- ==== Proof.RefPayload.lean ====
import proofs.«120801_g2000006315813370_pallasbulk_300_5_alg».proof.Proof.Gen.ReferenceIdeal.Frame
import proofs.«120801_g2000006315813370_pallasbulk_300_5_alg».proof.Proof.Spec
import proofs.«120801_g2000006315813370_pallasbulk_300_5_alg».proof.Proof.LibMatmulPlain
import Idealize.ShloMosaic.Lib.Pipeline.Value
import Idealize.ShloMosaic.Lib.ValueIdx
import Idealize.ShloMosaic.PureOps.IdealRules

/-! # What the body stores, entry by entry

The body works on a feature-major block: the batch block `x : [4, 4096]` (one batch row per COLUMN), the transposed
weights `w1 : [32, 4]`, `w2 : [32, 32]`, `w3 : [2, 32]` and the bias columns `b1, b2 : [32, 1]`, `b3 : [2, 1]`. It forms

  `a = relu (w1 · x + b1)`, `h = relu (w2 · a + b2)`, `l = w3 · h + b3`      (`[32, 4096]`, `[32, 4096]`, `[2, 4096]`),

the row `p = 1 / (1 + exp (0 - (l₀ - l₁)))` and stores the two rows `p` and `1 - p`.

Column `q` of every matrix product only involves column `q` of its right operand, so column `q` of what is stored is
the network of the specification applied to column `q` of `x`: entry `(j, q)` of `w · v + b` is
`∑ k, w (j, k) * v (k, q) + b (j, 0)`, which is the specification's affine map of the row `k ↦ v (k, q)` through the
weights `(k, j) ↦ w (j, k)` — the product's two factors in the other order. -/

open scoped BigOperators

noncomputable section

namespace Cert.ReferenceIdeal.RefPayload

open Cert.ReferenceIdeal Cert.ReferenceIdeal.Gen Idealize.ShloMosaic Idealize.ShloMosaic.ValueIdx
open Idealize.ShloMosaic.MatmulPlain Cert.Mlp

/-! ## The constants -/

theorem hz : (![0, 0] : Fin 2 → Nat) = fun _ => 0 := funext fun a => by fin_cases a <;> rfl

/-- The word `0x3F800000` is the number one. -/
theorem one_f32 : Ideal.ofBits .f32 0x3F800000#32 = 1 := IdealRules.sign_bit.ideal_onePat .f32

/-! ## The layers as operations on blocks -/

/-- One dense layer on a feature-major block of 4096 batch columns: the weights `[M, K]` times the block `[K, 4096]`,
    plus the bias column `[M, 1]` repeated along the columns. -/
def dense {M K : ℕ} (d : DotDims ⟨2, ![M, K]⟩ ⟨2, ![K, 4096]⟩ ⟨2, ![M, 4096]⟩)
    (hb : (⟨2, ![M, 1]⟩ : Shape).Broadcasts ⟨2, ![M, 4096]⟩)
    (w : FVec Ideal ⟨2, ![M, K]⟩ .f32) (b : FVec Ideal ⟨2, ![M, 1]⟩ .f32) (x : FVec Ideal ⟨2, ![K, 4096]⟩ .f32) :
    FVec Ideal ⟨2, ![M, 4096]⟩ .f32 :=
  addf (matmul d none w x (constant ⟨2, ![M, 4096]⟩ .f32 0x00000000#32)) (broadcastTo ⟨2, ![M, 4096]⟩ b hb)

/-- The rectifier: the maximum with the zero splat. -/
def relu {S : Shape} (v : FVec Ideal S .f32) : FVec Ideal S .f32 :=
  maximumf v (broadcast S (Scalar.ofBits .f32 0x00000000#32))

/-- The logistic of the difference of the two logit rows, `1 / (1 + exp (0 - (l₀ - l₁)))`, as a row `[1, 4096]`. -/
def logisticRow (l : FVec Ideal S2x4096 .f32) : FVec Ideal S1x4096 .f32 :=
  divf (broadcast S1x4096 (Scalar.ofBits .f32 0x3F800000#32))
    (addf (broadcast S1x4096 (Scalar.ofBits .f32 0x3F800000#32))
      (exp (subf (broadcast S1x4096 (Scalar.ofBits .f32 0x00000000#32))
        (subf (extractStridedSlice S1x4096 ![0, 0] l slices_S2x4096_o0_0_S1x4096)
          (extractStridedSlice S1x4096 ![1, 0] l slices_S2x4096_o1_0_S1x4096)))))

/-- The three sets of dimension numbers are those of a plain product. -/
theorem plain1 : IsPlain dot_S32x4_S4x4096_S32x4096_1_0_0_1_n_n := ⟨rfl, rfl, rfl, rfl, rfl, rfl⟩
theorem plain2 : IsPlain dot_S32x32_S32x4096_S32x4096_1_0_0_1_n_n := ⟨rfl, rfl, rfl, rfl, rfl, rfl⟩
theorem plain3 : IsPlain dot_S2x32_S32x4096_S2x4096_1_0_0_1_n_n := ⟨rfl, rfl, rfl, rfl, rfl, rfl⟩

/-- The hidden activations `h` of a block. -/
def hiddenBlock (x0 : Vec Ideal S4x4096 .f32) (x1 : Vec Ideal S32x4 .f32) (x2 : Vec Ideal S32x1 .f32) (x3 : Vec Ideal S32x32 .f32)
    (x4 : Vec Ideal S32x1 .f32) : FVec Ideal S32x4096 .f32 :=
  relu (dense dot_S32x32_S32x4096_S32x4096_1_0_0_1_n_n broadcasts_S32x1_S32x4096 x3 x4
    (relu (dense dot_S32x4_S4x4096_S32x4096_1_0_0_1_n_n broadcasts_S32x1_S32x4096 x1 x2 x0)))

/-- The two logit rows `l` of a block. -/
def logits (x0 : Vec Ideal S4x4096 .f32) (x1 : Vec Ideal S32x4 .f32) (x2 : Vec Ideal S32x1 .f32) (x3 : Vec Ideal S32x32 .f32)
    (x4 : Vec Ideal S32x1 .f32) (x5 : Vec Ideal S2x32 .f32) (x6 : Vec Ideal S2x1 .f32) : FVec Ideal S2x4096 .f32 :=
  dense dot_S2x32_S32x4096_S2x4096_1_0_0_1_n_n broadcasts_S2x1_S2x4096 x5 x6 (hiddenBlock x0 x1 x2 x3 x4)

/-! ## The printed payloads are these operations -/

/-- The row `p`: the printed chain is the three layers and the logistic, each loaded block first cast to its own shape. -/
theorem pay2_eq (x0 : Vec Ideal S4x4096 .f32) (x1 : Vec Ideal S32x4 .f32) (x2 : Vec Ideal S32x1 .f32) (x3 : Vec Ideal S32x32 .f32)
    (x4 : Vec Ideal S32x1 .f32) (x5 : Vec Ideal S2x32 .f32) (x6 : Vec Ideal S2x1 .f32) :
    k0_pay2 x0 x1 x2 x3 x4 x5 x6 = logisticRow (logits (shapeCast S4x4096 x0 shapeCasts_S4x4096_S4x4096)
      (shapeCast S32x4 x1 shapeCasts_S32x4_S32x4) (shapeCast S32x1 x2 shapeCasts_S32x1_S32x1)
      (shapeCast S32x32 x3 shapeCasts_S32x32_S32x32) (shapeCast S32x1 x4 shapeCasts_S32x1_S32x1)
      (shapeCast S2x32 x5 shapeCasts_S2x32_S2x32) (shapeCast S2x1 x6 shapeCasts_S2x1_S2x1)) := rfl

/-- What is stored: the row `p` on top of the row `1 - p`. -/
theorem pay1_eq (p : FVec Ideal S1x4096 .f32) :
    k0_pay1 p = concatenate S2x4096 0 [⟨S1x4096, p⟩, ⟨S1x4096, subf (broadcast S1x4096 (Scalar.ofBits .f32 0x3F800000#32)) p⟩]
      concatenates_S1x4096_S1x4096_S2x4096_d0 := rfl

/-- The output buffer after the body: one store of the whole buffer, of the payload of the whole loaded blocks. -/
theorem out_eq (x0 : Vec Ideal S4x4096 .f32) (x1 : Vec Ideal S32x4 .f32) (x2 : Vec Ideal S32x1 .f32) (x3 : Vec Ideal S32x32 .f32)
    (x4 : Vec Ideal S32x1 .f32) (x5 : Vec Ideal S2x32 .f32) (x6 : Vec Ideal S2x1 .f32) :
    out0_7 x0 x1 x2 x3 x4 x5 x6 = k0_pay1 (logisticRow (logits x0 x1 x2 x3 x4 x5 x6)) := by
  unfold out0_7
  rw [View.canon_unit_zero hz]
  simp only [View.ld_unit_zero (S := S4x4096) hz, View.ld_unit_zero (S := S32x4) hz, View.ld_unit_zero (S := S32x1) hz,
    View.ld_unit_zero (S := S32x32) hz, View.ld_unit_zero (S := S2x32) hz, View.ld_unit_zero (S := S2x1) hz]
  rw [pay2_eq]
  simp only [shapeCast_self]

/-! ## Each operation at an index -/

/-- A dense layer at `(j, q)`: the affine map of column `q` of the block through row `j` of the weights. -/
theorem dense_apply {M K : ℕ} {d : DotDims ⟨2, ![M, K]⟩ ⟨2, ![K, 4096]⟩ ⟨2, ![M, 4096]⟩} (hd : IsPlain d)
    (hb : (⟨2, ![M, 1]⟩ : Shape).Broadcasts ⟨2, ![M, 4096]⟩)
    (w : FVec Ideal ⟨2, ![M, K]⟩ .f32) (b : FVec Ideal ⟨2, ![M, 1]⟩ .f32) (x : FVec Ideal ⟨2, ![K, 4096]⟩ .f32)
    (j : Fin M) (q : Fin 4096) :
    dense d hb w b x (ix2 j q) = affine (fun k => x (ix2 k q)) (fun k j => w (ix2 j k)) (fun j => b (ix2 j 0)) j := by
  have hbias : broadcastTo ⟨2, ![M, 4096]⟩ b hb (ix2 j q) = b (ix2 j 0) :=
    broadcastTo_apply b hb (ix2 j q) (ix2 j 0) fun a => by
      match a with
      | ⟨0, _⟩ =>
        show j.val = if M = 1 then 0 else j.val
        split_ifs with h
        · have := j.isLt; omega
        · rfl
      | ⟨1, _⟩ => exact (if_pos rfl).symm
  show matmul d none w x (constant ⟨2, ![M, 4096]⟩ .f32 0x00000000#32) (ix2 j q) + broadcastTo ⟨2, ![M, 4096]⟩ b hb (ix2 j q) = _
  rw [matmul_zero_apply hd, hbias]
  unfold affine
  exact congrArg (· + b (ix2 j 0)) (Finset.sum_congr rfl fun k _ => mul_comm _ _)

/-- The rectifier at an index. -/
theorem relu_apply {S : Shape} (v : FVec Ideal S .f32) (i : S.Idx) : relu v i = max (v i) 0 := by
  show max (v i) (Ideal.ofBits .f32 0x00000000#32) = _
  rw [Ideal.ofBits_zero_f32]

/-- The logistic row at column `q`: the specification's logistic of the difference of the two logits there. -/
theorem logisticRow_apply (l : FVec Ideal S2x4096 .f32) (q : Fin 4096) :
    logisticRow l (ix2 0 q) = sigm (l (ix2 0 q) - l (ix2 1 q)) := by
  have e0 : extractStridedSlice S1x4096 ![0, 0] l slices_S2x4096_o0_0_S1x4096 (ix2 0 q) = l (ix2 0 q) :=
    extractStridedSlice_apply ![0, 0] l slices_S2x4096_o0_0_S1x4096 (ix2 0 q) (ix2 0 q) fun a => by
      match a with
      | ⟨0, _⟩ => rfl
      | ⟨1, _⟩ => show q.val = 0 + q.val; omega
  have e1 : extractStridedSlice S1x4096 ![1, 0] l slices_S2x4096_o1_0_S1x4096 (ix2 0 q) = l (ix2 1 q) :=
    extractStridedSlice_apply ![1, 0] l slices_S2x4096_o1_0_S1x4096 (ix2 0 q) (ix2 1 q) fun a => by
      match a with
      | ⟨0, _⟩ => rfl
      | ⟨1, _⟩ => show q.val = 0 + q.val; omega
  show Ideal.div (Ideal.ofBits .f32 0x3F800000#32) (Ideal.ofBits .f32 0x3F800000#32
    + Ideal.exp (Ideal.ofBits .f32 0x00000000#32 - (extractStridedSlice S1x4096 ![0, 0] l slices_S2x4096_o0_0_S1x4096 (ix2 0 q)
      - extractStridedSlice S1x4096 ![1, 0] l slices_S2x4096_o1_0_S1x4096 (ix2 0 q)))) = _
  rw [e0, e1, one_f32, Ideal.ofBits_zero_f32]
  rfl

/-- The first stored row is `p`. -/
theorem stored_zero (p : FVec Ideal S1x4096 .f32) (q : Fin 4096) : k0_pay1 p (ix2 0 q) = p (ix2 0 q) := by
  rw [pay1_eq]
  exact concatenate_pair_apply_left (0 : Fin S2x4096.rank) p _ concatenates_S1x4096_S1x4096_S2x4096_d0 (ix2 0 q) rfl (ix2 0 q)
    fun b => by
      match b with
      | ⟨0, _⟩ => rfl
      | ⟨1, _⟩ => rfl

/-- The second stored row is `1 - p`. -/
theorem stored_one (p : FVec Ideal S1x4096 .f32) (q : Fin 4096) : k0_pay1 p (ix2 1 q) = 1 - p (ix2 0 q) := by
  rw [pay1_eq]
  refine (concatenate_pair_apply_right (0 : Fin S2x4096.rank) p _ concatenates_S1x4096_S1x4096_S2x4096_d0 (ix2 1 q) rfl rfl
    (ix2 0 q) (fun b hb => ?_) rfl).trans ?_
  · match b with
    | ⟨0, _⟩ => exact absurd (Fin.ext rfl) hb
    | ⟨1, _⟩ => rfl
  · show Ideal.ofBits .f32 0x3F800000#32 - p (ix2 0 q) = _
    rw [one_f32]

/-! ## Column `q` of a block through the network -/

/-- Column `q` of the hidden activations is the specification's hidden layer of column `q` of the batch block. -/
theorem hiddenBlock_apply (x0 : Vec Ideal S4x4096 .f32) (x1 : Vec Ideal S32x4 .f32) (x2 : Vec Ideal S32x1 .f32)
    (x3 : Vec Ideal S32x32 .f32) (x4 : Vec Ideal S32x1 .f32) (q : Fin 4096) :
    (fun j : Fin 32 => hiddenBlock x0 x1 x2 x3 x4 (ix2 j q))
      = hidden (fun k => x0 (ix2 k q)) (fun k j => x1 (ix2 j k)) (fun j => x2 (ix2 j 0)) (fun k j => x3 (ix2 j k))
          (fun j => x4 (ix2 j 0)) := by
  funext j
  unfold hiddenBlock
  rw [relu_apply, dense_apply plain2]
  have e1 : (fun k : Fin 32 => relu (dense dot_S32x4_S4x4096_S32x4096_1_0_0_1_n_n broadcasts_S32x1_S32x4096 x1 x2 x0) (ix2 k q))
      = fun k => max (affine (fun k => x0 (ix2 k q)) (fun k j => x1 (ix2 j k)) (fun j => x2 (ix2 j 0)) k) 0 :=
    funext fun k => by rw [relu_apply, dense_apply plain1]
  rw [e1]
  rfl

/-- The logit of class `c` in column `q`. -/
theorem logits_apply (x0 : Vec Ideal S4x4096 .f32) (x1 : Vec Ideal S32x4 .f32) (x2 : Vec Ideal S32x1 .f32)
    (x3 : Vec Ideal S32x32 .f32) (x4 : Vec Ideal S32x1 .f32) (x5 : Vec Ideal S2x32 .f32) (x6 : Vec Ideal S2x1 .f32)
    (c : Fin 2) (q : Fin 4096) :
    logits x0 x1 x2 x3 x4 x5 x6 (ix2 c q)
      = affine (hidden (fun k => x0 (ix2 k q)) (fun k j => x1 (ix2 j k)) (fun j => x2 (ix2 j 0)) (fun k j => x3 (ix2 j k))
          (fun j => x4 (ix2 j 0))) (fun k c => x5 (ix2 c k)) (fun c => x6 (ix2 c 0)) c := by
  unfold logits
  rw [dense_apply plain3, hiddenBlock_apply]

/-- THE BODY'S RESULT AT AN INDEX: entry `(c, q)` of the output buffer is class `c` of the closed-form softmax of the network
    applied to column `q` of the batch block. -/
theorem out_apply (x0 : Vec Ideal S4x4096 .f32) (x1 : Vec Ideal S32x4 .f32) (x2 : Vec Ideal S32x1 .f32) (x3 : Vec Ideal S32x32 .f32)
    (x4 : Vec Ideal S32x1 .f32) (x5 : Vec Ideal S2x32 .f32) (x6 : Vec Ideal S2x1 .f32) (c : Fin 2) (q : Fin 4096) :
    out0_7 x0 x1 x2 x3 x4 x5 x6 (ix2 c q)
      = softOut (hidden (fun k => x0 (ix2 k q)) (fun k j => x1 (ix2 j k)) (fun j => x2 (ix2 j 0)) (fun k j => x3 (ix2 j k))
          (fun j => x4 (ix2 j 0))) (fun k c => x5 (ix2 c k)) (fun c => x6 (ix2 c 0)) c := by
  rw [out_eq]
  rcases (by revert c; decide : c = 0 ∨ c = 1) with rfl | rfl
  · rw [stored_zero, logisticRow_apply, logits_apply, logits_apply]
    rfl
  · rw [stored_one, logisticRow_apply, logits_apply, logits_apply]
    rfl

end Cert.ReferenceIdeal.RefPayload

end
-- ==== Proof.RefValue.lean ====
import proofs.«120801_g2000006315813370_pallasbulk_300_5_alg».proof.Proof.Gen.ReferenceIdeal.Frame
import proofs.«120801_g2000006315813370_pallasbulk_300_5_alg».proof.Proof.Spec
import proofs.«120801_g2000006315813370_pallasbulk_300_5_alg».proof.Proof.RefHost
import proofs.«120801_g2000006315813370_pallasbulk_300_5_alg».proof.Proof.RefPayload
import Idealize.ShloMosaic.Lib.Pipeline.Value
import Idealize.ShloMosaic.Lib.ValueIdx

/-! # The value of the program: the policy, row by row

The region runs over 512 grid points. At point `t` it is given columns `4096 t … 4096 t + 4095` of the feature-major
batch (a block `[4, 4096]`) and the six small arrays whole, and it writes back columns `4096 t … 4096 t + 4095` of its
result `[2, 2097152]`. By the body's value at an index, column `q` of what point `t` writes is the network applied to
column `4096 t + q` of the batch: so point `t` writes block `t` of ONE function of the launched arrays, the
specification's `softRegionT`. Column `r` of the result lies in the block of point `r / 4096`, so the blocks cover
the result, which therefore ends holding that function. The program's last step transposes it, and the launched
arrays are the transposes (and, for the biases, the columns) of the arguments: entry `(r, c)` of the final array is
class `c` of the policy of batch row `r`. -/

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Mlp

variable (m : (ℓ : Loc nD τ sig) → Buf (Elt Ideal) ℓ) (ρ : Dev nD → PrngReg)

/-! ## Where each window's block sits -/

/-- The batch window and the result window are at block `(0, t)` at point `t`. -/
theorem idx_moving : ∀ t : Fin cfg0.N, win0_0.index t (0 : Fin 2) = 0 ∧ win0_0.index t (1 : Fin 2) = t.val
    ∧ win0_7.index t (0 : Fin 2) = 0 ∧ win0_7.index t (1 : Fin 2) = t.val :=
  (by decide +kernel : ∀ t : Fin grid0.N, _)

/-- The six small windows are at block `(0, 0)` at every point. -/
theorem idx_fixed : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-! ## The input blocks, as entries of the launched arrays -/

/-- Column `q` of the batch block at point `t` is column `4096 t + q` of the feature-major batch. -/
theorem batch_block (c : Dev nD) (t : Fin cfg0.N) (k : Fin 4) (q : Fin 4096) (r : Fin 2097152)
    (hr : r.val = t.val * 4096 + q.val) :
    (iblk m c 0 t : Vec Ideal S4x4096 .f32) (ix2 k q) = (V m c main_v0 : S4x2097152.Idx → EReal) (ix2 k r) := by
  obtain ⟨e0, e1, -, -⟩ := idx_moving t
  show V m c main_v0 (((cfg0.win 0).blk t).view.emb (ix2 k q)) = V m c main_v0 (ix2 k r)
  refine congrArg _ (funext fun a => Fin.ext ?_)
  match a with
  | ⟨0, _⟩ => show win0_0.index t (0 : Fin 2) * 4 + 1 * k.val = k.val; omega
  | ⟨1, _⟩ => show win0_0.index t (1 : Fin 2) * 4096 + 1 * q.val = r.val; omega

/-- The first layer's weight block is the whole array. -/
theorem w1_block (c : Dev nD) (t : Fin cfg0.N) (j : Fin 32) (k : Fin 4) :
    (iblk m c 1 t : Vec Ideal S32x4 .f32) (ix2 j k) = (V m c main_v1 : S32x4.Idx → EReal) (ix2 j k) := by
  obtain ⟨e0, e1, -⟩ := idx_fixed t
  show V m c main_v1 (((cfg0.win 1).blk t).view.emb (ix2 j k)) = V m c main_v1 (ix2 j k)
  refine congrArg _ (funext fun a => Fin.ext ?_)
  match a with
  | ⟨0, _⟩ => show win0_1.index t (0 : Fin 2) * 32 + 1 * j.val = j.val; omega
  | ⟨1, _⟩ => show win0_1.index t (1 : Fin 2) * 4 + 1 * k.val = k.val; omega

/-- The first layer's bias block is the whole column. -/
theorem b1_block (c : Dev nD) (t : Fin cfg0.N) (j : Fin 32) :
    (iblk m c 2 t : Vec Ideal S32x1 .f32) (ix2 j 0) = (V m c main_v4 : S32x1.Idx → EReal) (ix2 j 0) := by
  obtain ⟨-, -, e0, e1, -⟩ := idx_fixed t
  show V m c main_v4 (((cfg0.win 2).blk t).view.emb (ix2 j 0)) = V m c main_v4 (ix2 j 0)
  refine congrArg _ (funext fun a => Fin.ext ?_)
  match a with
  | ⟨0, _⟩ => show win0_2.index t (0 : Fin 2) * 32 + 1 * j.val = j.val; omega
  | ⟨1, _⟩ => show win0_2.index t (1 : Fin 2) * 1 + 1 * 0 = 0; omega

/-- The second layer's weight block is the whole array. -/
theorem w2_block (c : Dev nD) (t : Fin cfg0.N) (j k : Fin 32) :
    (iblk m c 3 t : Vec Ideal S32x32 .f32) (ix2 j k) = (V m c main_v2 : S32x32.Idx → EReal) (ix2 j k) := by
  obtain ⟨-, -, -, -, e0, e1, -⟩ := idx_fixed t
  show V m c main_v2 (((cfg0.win 3).blk t).view.emb (ix2 j k)) = V m c main_v2 (ix2 j k)
  refine congrArg _ (funext fun a => Fin.ext ?_)
  match a with
  | ⟨0, _⟩ => show win0_3.index t (0 : Fin 2) * 32 + 1 * j.val = j.val; omega
  | ⟨1, _⟩ => show win0_3.index t (1 : Fin 2) * 32 + 1 * k.val = k.val; omega

/-- The second layer's bias block is the whole column. -/
theorem b2_block (c : Dev nD) (t : Fin cfg0.N) (j : Fin 32) :
    (iblk m c 4 t : Vec Ideal S32x1 .f32) (ix2 j 0) = (V m c main_v5 : S32x1.Idx → EReal) (ix2 j 0) := by
  obtain ⟨-, -, -, -, -, -, e0, e1, -⟩ := idx_fixed t
  show V m c main_v5 (((cfg0.win 4).blk t).view.emb (ix2 j 0)) = V m c main_v5 (ix2 j 0)
  refine congrArg _ (funext fun a => Fin.ext ?_)
  match a with
  | ⟨0, _⟩ => show win0_4.index t (0 : Fin 2) * 32 + 1 * j.val = j.val; omega
  | ⟨1, _⟩ => show win0_4.index t (1 : Fin 2) * 1 + 1 * 0 = 0; omega

/-- The last layer's weight block is the whole array. -/
theorem w3_block (c : Dev nD) (t : Fin cfg0.N) (a : Fin 2) (k : Fin 32) :
    (iblk m c 5 t : Vec Ideal S2x32 .f32) (ix2 a k) = (V m c main_v3 : S2x32.Idx → EReal) (ix2 a k) := by
  obtain ⟨-, -, -, -, -, -, -, -, e0, e1, -⟩ := idx_fixed t
  show V m c main_v3 (((cfg0.win 5).blk t).view.emb (ix2 a k)) = V m c main_v3 (ix2 a k)
  refine congrArg _ (funext fun d => Fin.ext ?_)
  match d with
  | ⟨0, _⟩ => show win0_5.index t (0 : Fin 2) * 2 + 1 * a.val = a.val; omega
  | ⟨1, _⟩ => show win0_5.index t (1 : Fin 2) * 32 + 1 * k.val = k.val; omega

/-- The last layer's bias block is the whole column. -/
theorem b3_block (c : Dev nD) (t : Fin cfg0.N) (a : Fin 2) :
    (iblk m c 6 t : Vec Ideal S2x1 .f32) (ix2 a 0) = (V m c main_v6 : S2x1.Idx → EReal) (ix2 a 0) := by
  obtain ⟨-, -, -, -, -, -, -, -, -, -, e0, e1⟩ := idx_fixed t
  show V m c main_v6 (((cfg0.win 6).blk t).view.emb (ix2 a 0)) = V m c main_v6 (ix2 a 0)
  refine congrArg _ (funext fun d => Fin.ext ?_)
  match d with
  | ⟨0, _⟩ => show win0_6.index t (0 : Fin 2) * 2 + 1 * a.val = a.val; omega
  | ⟨1, _⟩ => show win0_6.index t (1 : Fin 2) * 1 + 1 * 0 = 0; omega

/-! ## What the region leaves -/

/-- The function of the launched arrays the region computes: entry `(c, r)` is class `c` of batch row `r`. -/
abbrev regionOut (c : Dev nD) : Arr 2 2097152 :=
  softRegionT (V m c main_v0) (V m c main_v1) (V m c main_v4) (V m c main_v2) (V m c main_v5) (V m c main_v3) (V m c main_v6)

/-- `softRegionT` at `(a, r)`, its index taken apart. -/
theorem softRegionT_apply (XT : Arr 4 2097152) (W1T : Arr 32 4) (B1T : Arr 32 1) (W2T : Arr 32 32) (B2T : Arr 32 1) (W3T : Arr 2 32)
    (B3T : Arr 2 1) (a : Fin 2) (r : Fin 2097152) :
    softRegionT XT W1T B1T W2T B2T W3T B3T (ix2 a r)
      = softOut (hidden (fun k => XT (ix2 k r)) (fun k j => W1T (ix2 j k)) (fun j => B1T (ix2 j 0)) (fun k j => W2T (ix2 j k))
          (fun j => B2T (ix2 j 0))) (fun k c => W3T (ix2 c k)) (fun c => B3T (ix2 c 0)) a := rfl

/-- The body's result at an index, from what its input blocks are entry by entry. -/
theorem out_of_blocks (x0 : Vec Ideal S4x4096 .f32) (x1 : Vec Ideal S32x4 .f32) (x2 : Vec Ideal S32x1 .f32) (x3 : Vec Ideal S32x32 .f32)
    (x4 : Vec Ideal S32x1 .f32) (x5 : Vec Ideal S2x32 .f32) (x6 : Vec Ideal S2x1 .f32) (a : Fin 2) (q : Fin 4096)
    (xc : Fin 4 → EReal) (w1 : Fin 4 → Fin 32 → EReal) (b1 : Fin 32 → EReal) (w2 : Fin 32 → Fin 32 → EReal) (b2 : Fin 32 → EReal)
    (w3 : Fin 32 → Fin 2 → EReal) (b3 : Fin 2 → EReal)
    (hx : ∀ k, x0 (ix2 k q) = xc k) (hw1 : ∀ k j, x1 (ix2 j k) = w1 k j) (hb1 : ∀ j, x2 (ix2 j 0) = b1 j)
    (hw2 : ∀ k j, x3 (ix2 j k) = w2 k j) (hb2 : ∀ j, x4 (ix2 j 0) = b2 j) (hw3 : ∀ k c, x5 (ix2 c k) = w3 k c)
    (hb3 : ∀ c, x6 (ix2 c 0) = b3 c) :
    out0_7 x0 x1 x2 x3 x4 x5 x6 (ix2 a q) = softOut (hidden xc w1 b1 w2 b2) w3 b3 a := by
  obtain rfl : (fun k => x0 (ix2 k q)) = xc := funext hx
  obtain rfl : (fun k j => x1 (ix2 j k)) = w1 := funext fun k => funext fun j => hw1 k j
  obtain rfl : (fun j => x2 (ix2 j 0)) = b1 := funext hb1
  obtain rfl : (fun k j => x3 (ix2 j k)) = w2 := funext fun k => funext fun j => hw2 k j
  obtain rfl : (fun j => x4 (ix2 j 0)) = b2 := funext hb2
  obtain rfl : (fun k c => x5 (ix2 c k)) = w3 := funext fun k => funext fun c => hw3 k c
  obtain rfl : (fun c => x6 (ix2 c 0)) = b3 := funext hb3
  exact RefPayload.out_apply x0 x1 x2 x3 x4 x5 x6 a q

/-- WHAT POINT `t` WRITES BACK is block `t` of `regionOut`. -/
theorem flushed_eq (c : Dev nD) (t : Fin cfg0.N) :
    (dats m 0 c).flushed 7 t = ((cfg0.win 7).blk t).view.read (Elt Ideal) (regionOut m c) := by
  show (cfg0.win 7).cut (grid0.coords t) ((dats m 0 c).after 7 t) = _
  rw [after0_7]
  funext y
  obtain ⟨a, q, rfl⟩ : ∃ (a : Fin 2) (q : Fin 4096), y = ix2 a q := ⟨y 0, y 1, eq_ix2 y⟩
  have ht : t.val < 512 := lt_of_lt_of_eq t.isLt N_0
  have hq : q.val < 4096 := q.isLt
  obtain ⟨r, hr⟩ : ∃ r : Fin 2097152, r.val = t.val * 4096 + q.val := ⟨⟨t.val * 4096 + q.val, by omega⟩, rfl⟩
  obtain ⟨-, -, e0, e1⟩ := idx_moving t
  have hemb : ((cfg0.win 7).blk t).view.emb (ix2 a q) = (ix2 a r : S2x2097152.Idx) := funext fun d => Fin.ext (by
    match d with
    | ⟨0, _⟩ => show win0_7.index t (0 : Fin 2) * 2 + 1 * a.val = a.val; omega
    | ⟨1, _⟩ => show win0_7.index t (1 : Fin 2) * 4096 + 1 * q.val = r.val; omega)
  show out0_7 (iblk m c 0 t) (iblk m c 1 t) (iblk m c 2 t) (iblk m c 3 t) (iblk m c 4 t) (iblk m c 5 t) (iblk m c 6 t) (ix2 a q)
    = regionOut m c (((cfg0.win 7).blk t).view.emb (ix2 a q))
  refine Eq.trans ?_ (congrArg (regionOut m c) hemb).symm
  refine Eq.trans ?_ (softRegionT_apply (V m c main_v0) (V m c main_v1) (V m c main_v4) (V m c main_v2) (V m c main_v5) (V m c main_v3)
    (V m c main_v6) a r).symm
  exact out_of_blocks (iblk m c 0 t) (iblk m c 1 t) (iblk m c 2 t) (iblk m c 3 t) (iblk m c 4 t) (iblk m c 5 t) (iblk m c 6 t) a q
    (fun k => (V m c main_v0 : S4x2097152.Idx → EReal) (ix2 k r)) (fun k j => (V m c main_v1 : S32x4.Idx → EReal) (ix2 j k))
    (fun j => (V m c main_v4 : S32x1.Idx → EReal) (ix2 j 0)) (fun k j => (V m c main_v2 : S32x32.Idx → EReal) (ix2 j k))
    (fun j => (V m c main_v5 : S32x1.Idx → EReal) (ix2 j 0)) (fun k a => (V m c main_v3 : S2x32.Idx → EReal) (ix2 a k))
    (fun a => (V m c main_v6 : S2x1.Idx → EReal) (ix2 a 0))
    (fun k => batch_block m c t k q r hr) (fun k j => w1_block m c t j k) (fun j => b1_block m c t j)
    (fun k j => w2_block m c t j k) (fun j => b2_block m c t j) (fun k a => w3_block m c t a k) (fun a => b3_block m c t a)

/-- An index of the result is in point `t`'s block iff each coordinate is in the block's range on its axis. -/
theorem mem_blk (t : Fin cfg0.N) (i : S2x2097152.Idx) :
    i ∈ ((cfg0.win 7).blk t).view.set
      ↔ ∀ a : Fin 2, win0_7.index t a * S2x4096.size a ≤ (i a).val ∧ (i a).val < win0_7.index t a * S2x4096.size a + S2x4096.size a := by
  show i ∈ ((View.whole main_v7).slice (win0_7.rect t)).set ↔ _
  rw [View.set_slice_whole, Rect.mem_set_unit]
  exact Iff.rfl

/-- Every index of the result is in the block of the point its column falls in: column `r` in that of point `r / 4096`. -/
theorem covered (i : S2x2097152.Idx) :
    ∃ t : Fin cfg0.N, (cfg0.win 7).flush t = true ∧ i ∈ ((cfg0.win 7).blk t).view.set := by
  have hi0 : (i 0).val < 2 := (i 0).isLt
  have hi1 : (i 1).val < 2097152 := (i 1).isLt
  have hN : cfg0.N = 512 := N_0
  obtain ⟨t, htv⟩ : ∃ t : Fin cfg0.N, t.val = (i 1).val / 4096 := ⟨⟨(i 1).val / 4096, by rw [hN]; omega⟩, rfl⟩
  obtain ⟨-, -, e0, e1⟩ := idx_moving t
  refine ⟨t, flush0_7 t, ?_⟩
  rw [mem_blk]
  intro a
  match a with
  | ⟨0, _⟩ =>
    show win0_7.index t (0 : Fin 2) * 2 ≤ (i 0).val ∧ (i 0).val < win0_7.index t (0 : Fin 2) * 2 + 2
    omega
  | ⟨1, _⟩ =>
    show win0_7.index t (1 : Fin 2) * 4096 ≤ (i 1).val ∧ (i 1).val < win0_7.index t (1 : Fin 2) * 4096 + 4096
    omega

/-- THE REGION'S RESULT after the run: `softRegionT` of the launched arrays. -/
theorem final (c : Dev nD) : (dats m 0 c).arrAt 7 cfg0.N
    = softRegionT (V m c main_v0) (V m c main_v1) (V m c main_v4) (V m c main_v2) (V m c main_v5) (V m c main_v3) (V m c main_v6) :=
  (dats m 0 c).arrAt_eq_of_cover 7 (regionOut m c) (fun t _ => flushed_eq m c t) covered

/-! ## The last step, and the arguments -/

/-- The final array is the transposition of the region's result. -/
theorem tail_eq (c : Dev nD) : (Pipeline.afterTail₀ cfgs (dats m) 0 (V0 m) [hostOps1] c main_v8 : S2097152x2.Idx → EReal)
    = transpose S2097152x2 [1, 0] (regionOut m c) transposes_S2x2097152_S2097152x2_1_0 := by
  unfold Pipeline.afterTail₀
  show StableHlo.after hostOps1 _ (Proc.devRef .tc main_v8) = _
  after_results
  exact congrArg (fun A : S2x2097152.Idx → EReal => transpose S2097152x2 [1, 0] A transposes_S2x2097152_S2097152x2_1_0)
    ((Pipeline.withArrays_arr spec0 launch0.win.arr_inj c _ _ 7).trans (final m c))

/-- THE RESULT: the final array is the policy of the arguments. -/
theorem result (c : Dev nD) : (Pipeline.afterTail₀ cfgs (dats m) 0 (V0 m) [hostOps1] c main_v8 : S2097152x2.Idx → EReal)
    = policy (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (tail_eq m c).trans (funext fun i => ?_)
  obtain ⟨r, a, rfl⟩ : ∃ (r : Fin 2097152) (a : Fin 2), i = ix2 r a := ⟨i 0, i 1, eq_ix2 i⟩
  refine (RefHost.transpose_swap (regionOut m c) transposes_S2x2097152_S2097152x2_1_0 r a).trans ?_
  exact softRegionT_eq_policy _ _ _ _ _ _ _ _ _ _ _ _ _ _ (RefHost.xT_apply m c) (RefHost.w1T_apply m c) (RefHost.b1T_apply m c)
    (RefHost.w2T_apply m c) (RefHost.b2T_apply m c) (RefHost.w3T_apply m c) (RefHost.b3T_apply m c) r a

/-! ## The run, read -/

/-- The run of the program: the result array ends at the policy of the arguments, and the arguments as launched. -/
theorem run : θ_run (defs (F := Ideal)) (onTc (τ := τ) (main (F := Ideal))) ⟨m, fun _ => 0, ρ⟩ fun r => ∀ c : Dev nD,
      r.2.mem ((c : Thread nD τ).loc main_v8) = Cert.Mlp.policy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c =>
    ⟨((h c).2 main_v8 (Pipeline.mem_restRefs_of main_v8 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.ReferenceIdeal.RefValue

end
-- ==== Proof.lean ====
/-
  The certificate of the CartPole policy network: a three-layer perceptron `4 → 32 → 32 → 2` with relu after the first two
  layers and a two-class softmax at the end, over a batch of 2,097,152 rows.

  The kernel keeps the batch on the rows. Outside the region it forms the DIFFERENCE weights `w3[:, c] - w3[:, 1 - c]` and the
  difference bias, and its body ends with one elementwise logistic function `1 / (1 + exp (0 - z))`: for two classes the
  softmax probability of class `c` is the logistic of `l c - l (1 - c)`. The reference transposes every array so that the batch
  lies on the columns, computes the two logits `l 0`, `l 1`, and stores `p = 1 / (1 + exp (0 - (l 0 - l 1)))` and `1 - p`; it
  then transposes the result back.

  At the extended reals a matrix product is the exact sum, a change of layout moves no value, and both programs compute the
  same hidden activations entry by entry. The two last layers agree ON REAL NUMBERS: the contraction with the difference
  weights is the difference of the two contractions (distributivity), and `1 / (1 + exp d) = 1 - 1 / (1 + exp (-d))`. Neither
  holds at an infinite entry, and this is where the precondition — every entry of every input is finite — is used.

  The three frames are the generated ones. The kernel's result array is read block by block off the generated value leg of
  its run (Proof/KerPayload.lean, Proof/KerHost.lean, Proof/KerValue.lean), the reference's off its generated frame run and
  the host lines around the region (Proof/RefPayload.lean, Proof/RefHost.lean, Proof/RefValue.lean); the specification and
  the real-number bridge are Proof/Spec.lean, the precondition read as "every entry is real" is Proof/Finite.lean.
-/
import proofs.«120801_g2000006315813370_pallasbulk_300_5_alg».proof.Defs
import proofs.«120801_g2000006315813370_pallasbulk_300_5_alg».proof.Proof.Gen.Kernel
import proofs.«120801_g2000006315813370_pallasbulk_300_5_alg».proof.Proof.Gen.Kernel.Skeleton
import proofs.«120801_g2000006315813370_pallasbulk_300_5_alg».proof.Proof.Gen.Kernel.Launch
import proofs.«120801_g2000006315813370_pallasbulk_300_5_alg».proof.Proof.Gen.Kernel.Points
import proofs.«120801_g2000006315813370_pallasbulk_300_5_alg».proof.Proof.Gen.Kernel.Frame
import proofs.«120801_g2000006315813370_pallasbulk_300_5_alg».proof.Proof.Gen.KernelIdeal
import proofs.«120801_g2000006315813370_pallasbulk_300_5_alg».proof.Proof.Gen.KernelIdeal.Skeleton
import proofs.«120801_g2000006315813370_pallasbulk_300_5_alg».proof.Proof.Gen.KernelIdeal.Launch
import proofs.«120801_g2000006315813370_pallasbulk_300_5_alg».proof.Proof.Gen.KernelIdeal.Points
import proofs.«120801_g2000006315813370_pallasbulk_300_5_alg».proof.Proof.Gen.KernelIdeal.Frame
import proofs.«120801_g2000006315813370_pallasbulk_300_5_alg».proof.Proof.Gen.ReferenceIdeal
import proofs.«120801_g2000006315813370_pallasbulk_300_5_alg».proof.Proof.Gen.ReferenceIdeal.Skeleton
import proofs.«120801_g2000006315813370_pallasbulk_300_5_alg».proof.Proof.Gen.ReferenceIdeal.Launch
import proofs.«120801_g2000006315813370_pallasbulk_300_5_alg».proof.Proof.Gen.ReferenceIdeal.Points
import proofs.«120801_g2000006315813370_pallasbulk_300_5_alg».proof.Proof.Gen.ReferenceIdeal.Frame
import proofs.«120801_g2000006315813370_pallasbulk_300_5_alg».proof.Proof.Gen.Pre_finite_inputs
import proofs.«120801_g2000006315813370_pallasbulk_300_5_alg».proof.Proof.Spec
import proofs.«120801_g2000006315813370_pallasbulk_300_5_alg».proof.Proof.Finite
import proofs.«120801_g2000006315813370_pallasbulk_300_5_alg».proof.Proof.KerHost
import proofs.«120801_g2000006315813370_pallasbulk_300_5_alg».proof.Proof.KerValue
import proofs.«120801_g2000006315813370_pallasbulk_300_5_alg».proof.Proof.RefValue
import Idealize.ShloMosaic.Adequacy
import Idealize.ShloMosaic.Init

noncomputable section

namespace Cert.Proof

open Idealize.ShloMosaic Idealize.SL.Sem

/-- The three programs run, fault nowhere and leave their arguments as they were: the generated frames. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The ideal pass rewrote nothing: the idealized kernel is the kernel's own text read at the extended reals. -/
theorem preserves : Cert.preserves_Kernel_KernelIdeal := trivial

/-- Both idealized programs end with the policy of the arguments in their result: the kernel's logistic of the difference
    layer is the closed-form softmax because every entry is real (the precondition), the reference's formula is the policy
    itself. -/
theorem algebraic : Cert.algebraic_KernelIdeal_ReferenceIdeal := by
  intro m ρ m' ρ' hpre hagree
  refine ⟨fun c => Cert.Mlp.policy
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · refine (θ_run Cert.KernelIdeal.defs _ _).mono (fun r h c => ⟨(h c).1.trans ?_, (h c).2⟩)
      (Cert.KernelIdeal.KerValue.run m ρ)
    obtain ⟨h0, h1, h2, h3, h4, h5, h6⟩ := Cert.Mlp.Finite.entries_real _ _ _ _ _ _ _ (hpre c)
    exact Cert.Mlp.sigRegion_diff_eq_policy _ _ _ _ _ _ _ _ _ (Cert.KernelIdeal.KerValue.weights_eq m c)
      (Cert.KernelIdeal.KerValue.bias_eq m c) h0 h1 h2 h3 h4 h5 h6
  · refine (θ_run Cert.ReferenceIdeal.defs _ _).mono (fun r h c => ⟨(h c).1.trans ?_, (h c).2⟩)
      (Cert.ReferenceIdeal.RefValue.run m' ρ')
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
